-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S128x256 : Shape := ⟨2, ![128, 256]⟩
abbrev S256 : Shape := ⟨1, ![256]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_arg6 : FVec F S128 .f32) (main_arg7 : FVec F S128x256 .f32) (main_arg8 : FVec F S256 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x256 .f32 := Host.absf main_arg7
  let main_cst_8 : FVec F S_ .f32 := constant S_ .f32 0x7F800000#32
  let main_v25 : FVec F S128x256 .f32 := broadcastInDim S128x256 ![] bcast_S_S128x256 main_cst_8
  let main_v26 : IVec S128x256 1 := cmpf .olt main_v24 main_v25
  let main_c_9 : IVec S_ 1 := constantI S_ 1 1#1
  let main_v27 : IVec S_ 1 := (fun x v => Host.reduce IntOp.andi x v reducesTo_S128x256_S_d0_1 h_S_) main_v26 main_c_9
  let main_v28 : IVec S_ 1 := andi main_v23 main_v27
  let main_v29 : FVec F S256 .f32 := Host.absf main_arg8
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  main_v33

def fn {F : FTy → Type} [FloatOps F] (main_arg0 : FVec F S100000x128 .f32) (main_arg1 : IVec S1600000 32) (main_arg2 : IVec S1600000 32) (main_arg3 : FVec F S128x128 .f32) (main_arg4 : FVec F S128 .f32) (main_arg5 : FVec F S128x128 .f32) (main_arg6 : FVec F S128 .f32) (main_arg7 : FVec F S128x256 .f32) (main_arg8 : FVec F S256 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_v13 main_v16
-- ==== Kernel.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S128x256 : Shape := ⟨2, ![128, 256]⟩
abbrev S256 : Shape := ⟨1, ![256]⟩
abbrev S_ : Shape := ⟨0, ![]⟩
abbrev S1600000x1 : Shape := ⟨2, ![1600000, 1]⟩
abbrev S1600000x128 : Shape := ⟨2, ![1600000, 128]⟩
abbrev S1x128 : Shape := ⟨2, ![1, 128]⟩
abbrev S5000x128 : Shape := ⟨2, ![5000, 128]⟩
abbrev S1x256 : Shape := ⟨2, ![1, 256]⟩

abbrev nBuf : Space → Nat
  | .hbm => 40
  | .vmem => 14
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x256, .f32⟩
  | .hbm, ⟨8, _⟩ => ⟨S256, .f32⟩
  | .hbm, ⟨9, _⟩ => ⟨S_, .i32⟩
  | .hbm, ⟨10, _⟩ => ⟨S1600000, .i32⟩
  | .hbm, ⟨11, _⟩ => ⟨S1600000, .i1⟩
  | .hbm, ⟨12, _⟩ => ⟨S_, .i32⟩
  | .hbm, ⟨13, _⟩ => ⟨S1600000, .i32⟩
  | .hbm, ⟨14, _⟩ => ⟨S1600000, .i32⟩
  | .hbm, ⟨15, _⟩ => ⟨S1600000, .i32⟩
  | .hbm, ⟨16, _⟩ => ⟨S1600000x1, .i32⟩
  | .hbm, ⟨17, _⟩ => ⟨S1600000x128, .f32⟩
  | .hbm, ⟨18, _⟩ => ⟨S_, .f32⟩
  | .hbm, ⟨19, _⟩ => ⟨S100000x128, .f32⟩
  | .hbm, ⟨20, _⟩ => ⟨S1600000x1, .i32⟩
  | .hbm, ⟨21, _⟩ => ⟨S100000x128, .f32⟩
  | .hbm, ⟨22, _⟩ => ⟨S1x128, .f32⟩
  | .hbm, ⟨23, _⟩ => ⟨S100000x128, .f32⟩
  | .hbm, ⟨24, _⟩ => ⟨S_, .i32⟩
  | .hbm, ⟨25, _⟩ => ⟨S1600000, .i32⟩
  | .hbm, ⟨26, _⟩ => ⟨S1600000, .i1⟩
  | .hbm, ⟨27, _⟩ => ⟨S_, .i32⟩
  | .hbm, ⟨28, _⟩ => ⟨S1600000, .i32⟩
  | .hbm, ⟨29, _⟩ => ⟨S1600000, .i32⟩
  | .hbm, ⟨30, _⟩ => ⟨S1600000, .i32⟩
  | .hbm, ⟨31, _⟩ => ⟨S1600000x1, .i32⟩
  | .hbm, ⟨32, _⟩ => ⟨S1600000x128, .f32⟩
  | .hbm, ⟨33, _⟩ => ⟨S_, .f32⟩
  | .hbm, ⟨34, _⟩ => ⟨S100000x128, .f32⟩
  | .hbm, ⟨35, _⟩ => ⟨S1600000x1, .i32⟩
  | .hbm, ⟨36, _⟩ => ⟨S100000x128, .f32⟩
  | .hbm, ⟨37, _⟩ => ⟨S1x128, .f32⟩
  | .hbm, ⟨38, _⟩ => ⟨S1x256, .f32⟩
  | .hbm, ⟨39, _⟩ => ⟨S1x256, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S1x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S128x128, .f32⟩
  | .local _ .vmem, ⟨9, _⟩ => ⟨S1x128, .f32⟩
  | .local _ .vmem, ⟨10, _⟩ => ⟨S128x256, .f32⟩
  | .local _ .vmem, ⟨11, _⟩ => ⟨S1x256, .f32⟩
  | .local _ .vmem, ⟨12, _⟩ => ⟨S1x256, .f32⟩
  | .local _ .vmem, ⟨13, _⟩ => ⟨S1x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_c_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_c_1 : Ref sig .tc := ⟨.hbm, 24, rfl⟩
abbrev main_v12 : Ref sig .tc := ⟨.hbm, 25, rfl⟩
abbrev main_v13 : Ref sig .tc := ⟨.hbm, 26, rfl⟩
abbrev main_c_2 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_3 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg5_0 : Ref sig .tc := ⟨.vmem, 12, rfl⟩
abbrev cc1_scratch0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem4_0 : DmaSem sig := 11
abbrev cc1_sem5_0 : DmaSem sig := 12

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def k1_cond2 (i : grid1.Coords) : BitVec 1 :=
  let arg0 : BitVec 32 := BitVec.ofNat 32 (i 0).val
  let c19_i32 : BitVec 32 := 19#32
  let v22 : BitVec 1 := Scalar.cmpi .eq arg0 c19_i32
  let v23 : BitVec 32 := Scalar.extui v22
  let c0_i32_12 : BitVec 32 := 0#32
  let v24 : BitVec 1 := Scalar.cmpi .ne v23 c0_i32_12
  v24

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  shapeCasts_S256_S1x256 : S256.ShapeCasts S1x256
  reduces_S5000x128_S128 : S5000x128.Reduces [0] S128
  inb_S128x256_S128x256_0_0 : ∀ a, (![0, 0] : Fin 2 → Nat) a + S128x256.size a ≤ S128x256.size a
  h_S128x256 : 0 < S128x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  dot_S1x128_S128x256_S1x256_1_0_0_1_n_n_wf : DotDims.WF S1x128 S128x256 S1x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S100000x128.size a
  hwx0_3 : ∀ i : grid0.Coords, EltTy.bits .f32 = 32 ∨ (Rect.block (s := S100000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x256.size a ≤ S128x256.size a
  hwx1_3 : ∀ i : grid1.Coords, EltTy.bits .f32 = 32 ∨ (Rect.block (s := S128x256) S128x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x256.size a ≤ S1x256.size a
  hwx1_4 : ∀ i : grid1.Coords, EltTy.bits .f32 = 32 ∨ (Rect.block (s := S1x256) S1x256.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x256.size a ≤ S1x256.size a
  hwx1_5 : ∀ i : grid1.Coords, EltTy.bits .f32 = 32 ∨ (Rect.block (s := S1x256) S1x256.size (cc1_transform_5 i) (hinb1_5 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S1x128_S128x256_S1x256_1_0_0_1_n_n : DotDims S1x128 S128x256 S1x256 where
  lhsContracting := [1]
  rhsContracting := [0]
  lhsNonContracting := [0]
  rhsNonContracting := [1]
  lhsBatch := []
  rhsBatch := []
  wf := dot_S1x128_S128x256_S1x256_1_0_0_1_n_n_wf

abbrev win0_0 : Pipeline.Window sig grid0 :=
  Pipeline.Window.ofSpec (Memref.whole main_v9) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v10) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v11) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v21) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v22) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S128x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v23) S1x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v24) S1x256.size cc1_transform_5 reads1_5 true true 1 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev idle1 : Fin 6 → grid1.Coords → Bool := fun | 0 => fun _ => false | 1 => fun _ => false | 2 => fun _ => false | 3 => fun _ => false | 4 => fun _ => false | 5 => fun i => !(k1_cond2 i == 1#1) | ⟨_ + 6, h⟩ => absurd h (Nat.not_lt.2 (Nat.le_add_left _ _))

class Facts : Prop extends Facts₀ where

variable [Facts]
-- ==== ReferenceIdeal.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S128x256 : Shape := ⟨2, ![128, 256]⟩
abbrev S256 : Shape := ⟨1, ![256]⟩
abbrev S_ : Shape := ⟨0, ![]⟩
abbrev S1600000x1 : Shape := ⟨2, ![1600000, 1]⟩
abbrev S1600000x128 : Shape := ⟨2, ![1600000, 128]⟩
abbrev S1x128 : Shape := ⟨2, ![1, 128]⟩
abbrev S1x256 : Shape := ⟨2, ![1, 256]⟩

abbrev nBuf : Space → Nat
  | .hbm => 58
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x256, .f32⟩
  | .hbm, ⟨8, _⟩ => ⟨S256, .f32⟩
  | .hbm, ⟨9, _⟩ => ⟨S_, .i32⟩
  | .hbm, ⟨10, _⟩ => ⟨S1600000, .i32⟩
  | .hbm, ⟨11, _⟩ => ⟨S1600000, .i1⟩
  | .hbm, ⟨12, _⟩ => ⟨S_, .i32⟩
  | .hbm, ⟨13, _⟩ => ⟨S1600000, .i32⟩
  | .hbm, ⟨14, _⟩ => ⟨S1600000, .i32⟩
  | .hbm, ⟨15, _⟩ => ⟨S1600000, .i32⟩
  | .hbm, ⟨16, _⟩ => ⟨S1600000x1, .i32⟩
  | .hbm, ⟨17, _⟩ => ⟨S1600000x128, .f32⟩
  | .hbm, ⟨18, _⟩ => ⟨S_, .f32⟩
  | .hbm, ⟨19, _⟩ => ⟨S100000x128, .f32⟩
  | .hbm, ⟨20, _⟩ => ⟨S1600000x1, .i32⟩
  | .hbm, ⟨21, _⟩ => ⟨S100000x128, .f32⟩
  | .hbm, ⟨22, _⟩ => ⟨S100000x128, .f32⟩
  | .hbm, ⟨23, _⟩ => ⟨S1x128, .f32⟩
  | .hbm, ⟨24, _⟩ => ⟨S100000x128, .f32⟩
  | .hbm, ⟨25, _⟩ => ⟨S100000x128, .f32⟩
  | .hbm, ⟨26, _⟩ => ⟨S_, .f32⟩
  | .hbm, ⟨27, _⟩ => ⟨S100000x128, .f32⟩
  | .hbm, ⟨28, _⟩ => ⟨S100000x128, .f32⟩
  | .hbm, ⟨29, _⟩ => ⟨S_, .i32⟩
  | .hbm, ⟨30, _⟩ => ⟨S1600000, .i32⟩
  | .hbm, ⟨31, _⟩ => ⟨S1600000, .i1⟩
  | .hbm, ⟨32, _⟩ => ⟨S_, .i32⟩
  | .hbm, ⟨33, _⟩ => ⟨S1600000, .i32⟩
  | .hbm, ⟨34, _⟩ => ⟨S1600000, .i32⟩
  | .hbm, ⟨35, _⟩ => ⟨S1600000, .i32⟩
  | .hbm, ⟨36, _⟩ => ⟨S1600000x1, .i32⟩
  | .hbm, ⟨37, _⟩ => ⟨S1600000x128, .f32⟩
  | .hbm, ⟨38, _⟩ => ⟨S_, .f32⟩
  | .hbm, ⟨39, _⟩ => ⟨S100000x128, .f32⟩
  | .hbm, ⟨40, _⟩ => ⟨S1600000x1, .i32⟩
  | .hbm, ⟨41, _⟩ => ⟨S100000x128, .f32⟩
  | .hbm, ⟨42, _⟩ => ⟨S100000x128, .f32⟩
  | .hbm, ⟨43, _⟩ => ⟨S1x128, .f32⟩
  | .hbm, ⟨44, _⟩ => ⟨S100000x128, .f32⟩
  | .hbm, ⟨45, _⟩ => ⟨S100000x128, .f32⟩
  | .hbm, ⟨46, _⟩ => ⟨S_, .f32⟩
  | .hbm, ⟨47, _⟩ => ⟨S100000x128, .f32⟩
  | .hbm, ⟨48, _⟩ => ⟨S100000x128, .f32⟩
  | .hbm, ⟨49, _⟩ => ⟨S_, .f32⟩
  | .hbm, ⟨50, _⟩ => ⟨S128, .f32⟩
  | .hbm, ⟨51, _⟩ => ⟨S1x128, .f32⟩
  | .hbm, ⟨52, _⟩ => ⟨S1x256, .f32⟩
  | .hbm, ⟨53, _⟩ => ⟨S1x256, .f32⟩
  | .hbm, ⟨54, _⟩ => ⟨S1x256, .f32⟩
  | .hbm, ⟨55, _⟩ => ⟨S_, .f32⟩
  | .hbm, ⟨56, _⟩ => ⟨S1x256, .f32⟩
  | .hbm, ⟨57, _⟩ => ⟨S1x256, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_c_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_call0_cst : Ref sig .tc := ⟨.hbm, 26, rfl⟩
abbrev main_call0_v0 : Ref sig .tc := ⟨.hbm, 27, rfl⟩
abbrev main_v14 : Ref sig .tc := ⟨.hbm, 28, rfl⟩
abbrev main_c_1 : Ref sig .tc := ⟨.hbm, 29, rfl⟩
abbrev main_v15 : Ref sig .tc := ⟨.hbm, 30, rfl⟩
abbrev main_v16 : Ref sig .tc := ⟨.hbm, 31, rfl⟩
abbrev main_c_2 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_cst_3 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_call1_cst : Ref sig .tc := ⟨.hbm, 46, rfl⟩
abbrev main_call1_v0 : Ref sig .tc := ⟨.hbm, 47, rfl⟩
abbrev main_v29 : Ref sig .tc := ⟨.hbm, 48, rfl⟩
abbrev main_cst_4 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_call2_cst : Ref sig .tc := ⟨.hbm, 55, rfl⟩
abbrev main_call2_v0 : Ref sig .tc := ⟨.hbm, 56, rfl⟩
abbrev main_v35 : Ref sig .tc := ⟨.hbm, 57, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S128_d0 : S100000x128.ReducesTo [0] S128
  h_S_ : 0 < S_.numel
  bcast_S256_S1x256_1 : S256.BroadcastsInDim S1x256 (![1] : Fin 1 → Fin S1x256.rank)
  bcast_S_S1x256 : S_.BroadcastsInDim S1x256 (![] : Fin 0 → Fin S1x256.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []
  dot_S1x128_S128x256_S1x256_1_0_0_1_n_n_wf : DotDims.WF S1x128 S128x256 S1x256 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S1x128_S128x256_S1x256_1_0_0_1_n_n : DotDims S1x128 S128x256 S1x256 where
  lhsContracting := [1]
  rhsContracting := [0]
  lhsNonContracting := [0]
  rhsNonContracting := [1]
  lhsBatch := []
  rhsBatch := []
  wf := dot_S1x128_S128x256_S1x256_1_0_0_1_n_n_wf

class Facts : Prop extends Facts₀ where

variable [Facts]
-- ==== Proof.K.Lin.lean ====
/-
  The first dense layer as a pipeline region (generic in the float instance).
  At a grid point the body reads a block of 5000 rows of the aggregated features, the whole 128x128 weight
  and the one-row bias, and stores into the output block the rectified affine image of the rows; nothing is
  carried from point to point. Stated at a parameter `V`: the buffers' contents when the region is entered.
-/
import proofs.«102334_j81604378624770_1_alg».proof.Proof.Gen.Kernel.Launch
import proofs.«102334_j81604378624770_1_alg».proof.Proof.Gen.Kernel.Skeleton
import proofs.«102334_j81604378624770_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Lin

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not: where it is not
    fetched its block index has not moved. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The whole-buffer rectangles the body reads and writes through. -/
abbrev rRows : Rect S5000x128 := Rect.unit (s := S5000x128) ![0, 0] S5000x128.size inb_S5000x128_S5000x128_0_0
abbrev rW : Rect S128x128 := Rect.unit (s := S128x128) ![0, 0] S128x128.size inb_S128x128_S128x128_0_0
abbrev rB : Rect S1x128 := Rect.unit (s := S1x128) ![0, 0] S1x128.size inb_S1x128_S1x128_0_0

/-- What the body leaves in the output block, from the three input blocks: its one store, read back. -/
def lin0 (x0 : Vec F S5000x128 .f32) (x1 : Vec F S128x128 .f32) (x2 : Vec F S1x128 .f32) : Vec F S5000x128 .f32 :=
  View.canon [⟨rRows, k0_pay1 (View.ld x0 rRows) (View.ld x1 rW) (View.ld x2 rB)⟩]

/-- The one store covers the block. -/
theorem cover0_3 (p0 : Vec F S5000x128 .f32) (y : S5000x128.Idx) :
    ∃ pc ∈ ([⟨rRows, p0⟩] : List (View.Piece (Elt F) S5000x128 .f32)), y ∈ pc.1.set :=
  View.cover_of_tiled [⟨rRows, p0⟩] S5000x128.size (by rfl) y

set_option maxHeartbeats 1000000 in
/-- The body on whole staging memrefs: the inputs are left as found, the output block ends at `lin0` of them. -/
theorem sound_kernel0 (c : Dev nD) (E : Set ℕ) (i : grid0.Coords) (arg1 : Memref sig .tc .vmem S5000x128 .f32) (harg1 : arg1.IsWhole)
    (arg2 : Memref sig .tc .vmem S128x128 .f32) (harg2 : arg2.IsWhole) (arg3 : Memref sig .tc .vmem S1x128 .f32) (harg3 : arg3.IsWhole)
    (arg4 : Memref sig .tc .vmem S5000x128 .f32) (harg4 : arg4.IsWhole)
    (x0 : Vec F S5000x128 .f32) (x1 : Vec F S128x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (lin0 x0 x1 x2)) -∗ K ⟨⟩))
      ⊢ wp frame (wpE (defs₀ (F := F)) Variants.none c none) E (cc0__linear_relu_kernel i arg1 harg1 arg2 harg2 arg3 harg3 arg4 harg4) K := by
  simp only [cc0__linear_relu_kernel_eq_skeleton]; unfold cc0__linear_relu_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-- The region's proof data on core `c`: the arrays as the region finds them; after the body each input's buffer at its
    block and the output's at `lin0` of the blocks; the invariant the scoped rest and the generator register, untouched;
    nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => lin0 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = lin0 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Lin

end
-- ==== Proof.K.Pool.lean ====
/-
  The second dense layer fused with the sum over nodes and the last layer, as a pipeline region (generic in the float
  instance). At a grid point the body reads a block of 5000 rows of the aggregated hidden features, computes the
  rectified affine image of the rows, sums it over the rows and adds the row of sums to a running total kept in a
  scratch row; the total is reset to zero at the first point, and at the last point the last layer's rectified affine
  image of the total is stored into the one-row result. Stated at a parameter `V`: the buffers' contents when the region
  is entered.
-/
import proofs.«102334_j81604378624770_1_alg».proof.Proof.Gen.Kernel.Launch
import proofs.«102334_j81604378624770_1_alg».proof.Proof.Gen.Kernel.Skeleton
import proofs.«102334_j81604378624770_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Pipeline.Value
import Idealize.ShloMosaic.Lib.Tactic

set_option maxRecDepth 16384

noncomputable section

namespace Cert.Kernel.Pool

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The whole-buffer rectangles the body reads and writes through. -/
abbrev rRows : Rect S5000x128 := Rect.unit (s := S5000x128) ![0, 0] S5000x128.size inb_S5000x128_S5000x128_0_0
abbrev rW : Rect S128x128 := Rect.unit (s := S128x128) ![0, 0] S128x128.size inb_S128x128_S128x128_0_0
abbrev rB : Rect S1x128 := Rect.unit (s := S1x128) ![0, 0] S1x128.size inb_S1x128_S1x128_0_0
abbrev rW3 : Rect S128x256 := Rect.unit (s := S128x256) ![0, 0] S128x256.size inb_S128x256_S128x256_0_0
abbrev rO : Rect S1x256 := Rect.unit (s := S1x256) ![0, 0] S1x256.size inb_S1x256_S1x256_0_0

/-- The two branch conditions of the body, from the grid coordinates. -/
abbrev condFirst (i : grid1.Coords) : Prop := (Scalar.cmpi .ne (Scalar.extui (Scalar.cmpi .eq (BitVec.ofNat 32 (i 0).val) 0#32)) 0#32) = 1#1
abbrev condLast (i : grid1.Coords) : Prop := k1_cond2 i = 1#1

theorem hz2 : (![0, 0] : Fin 2 → Nat) = fun _ => 0 := funext fun a => by fin_cases a <;> rfl

/-- A list of stores whose LAST one is through the whole row covers the row; the same for the result row. -/
theorem covR (p : Vec F S1x128 .f32) (L : List (View.Piece (Elt F) S1x128 .f32)) (y : S1x128.Idx) :
    ∃ pc ∈ ((⟨rB, p⟩ : View.Piece (Elt F) S1x128 .f32) :: L), y ∈ pc.1.set :=
  ⟨_, List.mem_cons.mpr (Or.inl rfl), View.mem_set_unit_zero hz2 inb_S1x128_S1x128_0_0 y⟩
theorem covO (p : Vec F S1x256 .f32) (L : List (View.Piece (Elt F) S1x256 .f32)) (y : S1x256.Idx) :
    ∃ pc ∈ ((⟨rO, p⟩ : View.Piece (Elt F) S1x256 .f32) :: L), y ∈ pc.1.set :=
  ⟨_, List.mem_cons.mpr (Or.inl rfl), View.mem_set_unit_zero hz2 inb_S1x256_S1x256_0_0 y⟩

/-- The running total after a point, from the block of rows, the weight, the bias row and the total before it:
    the total plus the row of column sums of the rectified affine image of the block. -/
abbrev accStep (x0 : Vec F S5000x128 .f32) (x1 : Vec F S128x128 .f32) (x2 : Vec F S1x128 .f32) (s : Vec F S1x128 .f32) : Vec F S1x128 .f32 :=
  k1_pay2 x0 x1 x2 s

/-- The zero row the first point resets the total to. -/
abbrev accZero : Vec F S1x128 .f32 := k1_pay1

/-- The result row, from the final total, the last weight and the last bias row. -/
abbrev headOf (s : Vec F S1x128 .f32) (x3 : Vec F S128x256 .f32) (x4 : Vec F S1x256 .f32) : Vec F S1x256 .f32 :=
  k1_pay3 s x3 x4

set_option maxHeartbeats 1000000 in
/-- The first point: the scratch row, whatever it held, is reset to zero and then increased; every window's buffer, the
    result's included, is left as found. -/
theorem sound_first (c : Dev nD) (E : Set ℕ) (i : grid1.Coords)
    (arg1 : Memref sig .tc .vmem S5000x128 .f32) (harg1 : arg1.IsWhole) (arg2 : Memref sig .tc .vmem S128x128 .f32) (harg2 : arg2.IsWhole)
    (arg3 : Memref sig .tc .vmem S1x128 .f32) (harg3 : arg3.IsWhole) (arg4 : Memref sig .tc .vmem S128x256 .f32) (harg4 : arg4.IsWhole)
    (arg5 : Memref sig .tc .vmem S1x256 .f32) (harg5 : arg5.IsWhole) (arg6 : Memref sig .tc .vmem S1x256 .f32) (harg6 : arg6.IsWhole)
    (arg7 : Memref sig .tc .vmem S1x128 .f32) (harg7 : arg7.IsWhole)
    (hc0 : condFirst i) (hc1 : ¬condLast i)
    (x0 : Vec F S5000x128 .f32) (x1 : Vec F S128x128 .f32) (x2 : Vec F S1x128 .f32) (x3 : Vec F S128x256 .f32) (x4 : Vec F S1x256 .f32)
    (xo : Vec F S1x256 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ owns (c : Thread nD τ) arg6 fullShare xo ∗ (∃ d, owns (c : Thread nD τ) arg7 fullShare d)
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
            ∗ owns (c : Thread nD τ) arg6 fullShare xo ∗ owns (c : Thread nD τ) arg7 fullShare (accStep x0 x1 x2 accZero)) -∗ K ⟨⟩))
      ⊢ wp frame (wpE (defs₀ (F := F)) Variants.none c none) E (cc1__layer2_pool_kernel i arg1 harg1 arg2 harg2 arg3 harg3 arg4 harg4 arg5 harg5 arg6 harg6 arg7 harg7) K := by
  simp only [cc1__layer2_pool_kernel_eq_skeleton]; unfold cc1__layer2_pool_kernel_skel
  unfold owns
  iintro ⟨⟨%f0, %hf0, H0⟩, ⟨%f1, %hf1, H1⟩, ⟨%f2, %hf2, H2⟩, ⟨%f3, %hf3, H3⟩, ⟨%f4, %hf4, H4⟩, ⟨%f6, %hf6, H6⟩, ⟨%d7, %f7, -, H7⟩, Hk⟩
  subst hf0; subst hf1; subst hf2; subst hf3; subst hf4; subst hf6
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H6]
  · iexists f6; isplitr; · ipureintro; rfl
    iexact H6
  iexists _; isplitr
  swap; · iexact H7
  ipureintro
  sl_unfold_words
  rw [View.read_writes_eq_canon _ _ _ (covR _ _)]
  rw [View.canon_cons_unit_zero (S := S1x128) hz2, View.readCov_unit_zero (S := S1x128) _ hz2]
  simp only [View.readAt_eq_ld, View.ld_unit_zero (S := S5000x128) hz2, View.ld_unit_zero (S := S128x128) hz2, View.ld_unit_zero (S := S1x128) hz2, View.ld_unit_zero (S := S128x256) hz2, View.ld_unit_zero (S := S1x256) hz2]

set_option maxHeartbeats 1000000 in
/-- A middle point (neither the first nor the last): the scratch row goes from `s` to `accStep … s`; every window's
    buffer, the result's included, is left as found. -/
theorem sound_mid (c : Dev nD) (E : Set ℕ) (i : grid1.Coords)
    (arg1 : Memref sig .tc .vmem S5000x128 .f32) (harg1 : arg1.IsWhole) (arg2 : Memref sig .tc .vmem S128x128 .f32) (harg2 : arg2.IsWhole)
    (arg3 : Memref sig .tc .vmem S1x128 .f32) (harg3 : arg3.IsWhole) (arg4 : Memref sig .tc .vmem S128x256 .f32) (harg4 : arg4.IsWhole)
    (arg5 : Memref sig .tc .vmem S1x256 .f32) (harg5 : arg5.IsWhole) (arg6 : Memref sig .tc .vmem S1x256 .f32) (harg6 : arg6.IsWhole)
    (arg7 : Memref sig .tc .vmem S1x128 .f32) (harg7 : arg7.IsWhole)
    (hc0 : ¬condFirst i) (hc1 : ¬condLast i)
    (x0 : Vec F S5000x128 .f32) (x1 : Vec F S128x128 .f32) (x2 : Vec F S1x128 .f32) (x3 : Vec F S128x256 .f32) (x4 : Vec F S1x256 .f32)
    (xo : Vec F S1x256 .f32) (s : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ owns (c : Thread nD τ) arg6 fullShare xo ∗ owns (c : Thread nD τ) arg7 fullShare s
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
            ∗ owns (c : Thread nD τ) arg6 fullShare xo ∗ owns (c : Thread nD τ) arg7 fullShare (accStep x0 x1 x2 s)) -∗ K ⟨⟩))
      ⊢ wp frame (wpE (defs₀ (F := F)) Variants.none c none) E (cc1__layer2_pool_kernel i arg1 harg1 arg2 harg2 arg3 harg3 arg4 harg4 arg5 harg5 arg6 harg6 arg7 harg7) K := by
  simp only [cc1__layer2_pool_kernel_eq_skeleton]; unfold cc1__layer2_pool_kernel_skel
  unfold owns
  iintro ⟨⟨%f0, %hf0, H0⟩, ⟨%f1, %hf1, H1⟩, ⟨%f2, %hf2, H2⟩, ⟨%f3, %hf3, H3⟩, ⟨%f4, %hf4, H4⟩, ⟨%f6, %hf6, H6⟩, ⟨%f7, %hf7, H7⟩, Hk⟩
  subst hf0; subst hf1; subst hf2; subst hf3; subst hf4; subst hf6; subst hf7
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H6]
  · iexists f6; isplitr; · ipureintro; rfl
    iexact H6
  iexists _; isplitr
  swap; · iexact H7
  ipureintro
  sl_unfold_words
  rw [View.read_writes_eq_canon _ _ _ (covR _ _)]
  rw [View.canon_cons_unit_zero (S := S1x128) hz2]
  simp only [View.readAt_eq_ld, View.ld_unit_zero (S := S5000x128) hz2, View.ld_unit_zero (S := S128x128) hz2, View.ld_unit_zero (S := S1x128) hz2, View.ld_unit_zero (S := S128x256) hz2, View.ld_unit_zero (S := S1x256) hz2]

set_option maxHeartbeats 1000000 in
/-- The last point: the scratch row goes from `s` to `accStep … s`, and the result's buffer, whatever it held, ends at
    the last layer's image of that final total. -/
theorem sound_last (c : Dev nD) (E : Set ℕ) (i : grid1.Coords)
    (arg1 : Memref sig .tc .vmem S5000x128 .f32) (harg1 : arg1.IsWhole) (arg2 : Memref sig .tc .vmem S128x128 .f32) (harg2 : arg2.IsWhole)
    (arg3 : Memref sig .tc .vmem S1x128 .f32) (harg3 : arg3.IsWhole) (arg4 : Memref sig .tc .vmem S128x256 .f32) (harg4 : arg4.IsWhole)
    (arg5 : Memref sig .tc .vmem S1x256 .f32) (harg5 : arg5.IsWhole) (arg6 : Memref sig .tc .vmem S1x256 .f32) (harg6 : arg6.IsWhole)
    (arg7 : Memref sig .tc .vmem S1x128 .f32) (harg7 : arg7.IsWhole)
    (hc0 : ¬condFirst i) (hc1 : condLast i)
    (x0 : Vec F S5000x128 .f32) (x1 : Vec F S128x128 .f32) (x2 : Vec F S1x128 .f32) (x3 : Vec F S128x256 .f32) (x4 : Vec F S1x256 .f32)
    (s : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d) ∗ owns (c : Thread nD τ) arg7 fullShare s
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
            ∗ owns (c : Thread nD τ) arg6 fullShare (headOf (accStep x0 x1 x2 s) x3 x4)
            ∗ owns (c : Thread nD τ) arg7 fullShare (accStep x0 x1 x2 s)) -∗ K ⟨⟩))
      ⊢ wp frame (wpE (defs₀ (F := F)) Variants.none c none) E (cc1__layer2_pool_kernel i arg1 harg1 arg2 harg2 arg3 harg3 arg4 harg4 arg5 harg5 arg6 harg6 arg7 harg7) K := by
  simp only [cc1__layer2_pool_kernel_eq_skeleton]; unfold cc1__layer2_pool_kernel_skel
  unfold owns
  iintro ⟨⟨%f0, %hf0, H0⟩, ⟨%f1, %hf1, H1⟩, ⟨%f2, %hf2, H2⟩, ⟨%f3, %hf3, H3⟩, ⟨%f4, %hf4, H4⟩, ⟨%d6, %f6, -, H6⟩, ⟨%f7, %hf7, H7⟩, Hk⟩
  subst hf0; subst hf1; subst hf2; subst hf3; subst hf4; subst hf7
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H6]
  · iexists _; isplitr
    swap; · iexact H6
    ipureintro
    sl_unfold_words
    rw [View.read_writes_eq_canon _ _ _ (covO _ _)]
    rw [View.canon_cons_unit_zero (S := S1x256) hz2, View.readCov_unit_zero (S := S1x128) _ hz2]
    simp only [View.readAt_eq_ld, View.ld_unit_zero (S := S5000x128) hz2, View.ld_unit_zero (S := S128x128) hz2, View.ld_unit_zero (S := S1x128) hz2, View.ld_unit_zero (S := S128x256) hz2, View.ld_unit_zero (S := S1x256) hz2]
  iexists _; isplitr
  swap; · iexact H7
  ipureintro
  sl_unfold_words
  rw [View.read_writes_eq_canon _ _ _ (covR _ _)]
  rw [View.canon_cons_unit_zero (S := S1x128) hz2]
  simp only [View.readAt_eq_ld, View.ld_unit_zero (S := S5000x128) hz2, View.ld_unit_zero (S := S128x128) hz2, View.ld_unit_zero (S := S1x128) hz2, View.ld_unit_zero (S := S128x256) hz2, View.ld_unit_zero (S := S1x256) hz2]

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not: where it is not
    fetched its block index has not moved. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- The scratch row, as a memref. -/
abbrev scM : Memref sig .tc .vmem S1x128 .f32 := Memref.whole cc1_scratch0

/-- The running total BEFORE point `n` (after point `n - 1`): zero, then increased point by point by the column sums
    of the rectified affine image of the point's block of rows. -/
def acc1 (c : Dev nD) : ℕ → Vec F S1x128 .f32
  | 0 => accZero
  | n + 1 => if h : n < cfg1.N then accStep (iblk1 V c 0 ⟨n, h⟩) (iblk1 V c 1 ⟨n, h⟩) (iblk1 V c 2 ⟨n, h⟩) (acc1 c n) else acc1 c n

theorem acc1_zero (c : Dev nD) : acc1 V c 0 = accZero := rfl

theorem acc1_succ (c : Dev nD) (t : Fin cfg1.N) :
    acc1 V c (t.val + 1) = accStep (iblk1 V c 0 t) (iblk1 V c 1 t) (iblk1 V c 2 t) (acc1 V c t.val) := by
  rw [acc1, dif_pos t.isLt]

/-- The scoped buffers other than the scratch row and the staging buffers, at some contents each. -/
abbrev otherScoped (c : Dev nD) : sProp 𝕄 :=
  Pipeline.scopedRestBut (Ix := Unit) (Name := ℕ) (U := UR sig nD τ) (Lvl := ℕ) (Val := Elt F) spec1 c [cc1_scratch0]

/-- The region's class invariant with the scratch row split out. -/
theorem PhiA1_eq (c : Dev nD) :
    (Pipeline.ΦA spec1 c : sProp 𝕄)
      = iprop(iprop((∃ d, owns (c : Thread nD τ) scM fullShare d) ∗ otherScoped (F := F) c) ∗ (∃ r, prngReg c r)) := by
  unfold Pipeline.ΦA
  rw [Pipeline.scopedRest_split_of_list spec1 c [cc1_scratch0] (by decide) (by decide)]
  simp only [BI.bigSepL_singleton, scM, owns_whole]
  rfl

/-- The invariant before position `n`: before the first point the scratch row holds anything; afterwards it holds the
    running total. The other scoped buffers and the generator register ride along untouched. -/
def Phi1 (c : Dev nD) : ℕ → sProp 𝕄
  | 0 => Pipeline.ΦA spec1 c
  | n + 1 => iprop(iprop(owns (c : Thread nD τ) scM fullShare (acc1 V c (n + 1)) ∗ otherScoped (F := F) c) ∗ (∃ r, prngReg c r))

theorem Phi1_succ (c : Dev nD) (n : ℕ) :
    Phi1 V c (n + 1) = iprop(iprop(owns (c : Thread nD τ) scM fullShare (acc1 V c (n + 1)) ∗ otherScoped (F := F) c) ∗ (∃ r, prngReg c r)) := rfl

theorem Phi1_pos (c : Dev nD) (n : ℕ) (hn : n ≠ 0) :
    Phi1 V c n = iprop(iprop(owns (c : Thread nD τ) scM fullShare (acc1 V c n) ∗ otherScoped (F := F) c) ∗ (∃ r, prngReg c r)) := by
  cases n with
  | zero => exact absurd rfl hn
  | succ n => rfl

/-- The region's proof data on core `c`: the arrays as the region finds them; after the body each input's buffer at its
    block and the result's at the last layer's image of the running total after the point; the invariant `Phi1`; nothing
    owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => headOf (acc1 V c (t.val + 1)) (iblk1 V c 3 t) (iblk1 V c 4 t)
  Φ t := Phi1 V c t.val
  q _ := fullShare
  owed _ := 0

theorem A_eq1 (c : Dev nD) (w : Fin cfg1.W) : (dat1 V c).A w = V c (Pipeline.arrRef spec1 w) := by
  dsimp only [dat1]

theorem Phi1_castSucc (c : Dev nD) (t : Fin cfg1.N) : (dat1 V c).Φ t.castSucc = Phi1 V c t.val := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) :
    (dat1 V c).after 5 t = headOf (acc1 V c (t.val + 1)) (iblk1 V c 3 t) (iblk1 V c 4 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The branch conditions and the idle table, decided over the grid -/

theorem hFirst : ∀ t : Fin cfg1.N, condFirst (grid1.coords t) ↔ t.val = 0 :=
  (by decide +kernel : ∀ t : Fin grid1.N, condFirst (grid1.coords t) ↔ t.val = 0)
theorem hLast : ∀ t : Fin cfg1.N, condLast (grid1.coords t) ↔ t.val = 19 :=
  (by decide +kernel : ∀ t : Fin grid1.N, condLast (grid1.coords t) ↔ t.val = 19)
theorem live1_0 : ∀ t : Fin cfg1.N, cfg1.idle 0 (grid1.coords t) = false := fun _ => rfl
theorem live1_1 : ∀ t : Fin cfg1.N, cfg1.idle 1 (grid1.coords t) = false := fun _ => rfl
theorem live1_2 : ∀ t : Fin cfg1.N, cfg1.idle 2 (grid1.coords t) = false := fun _ => rfl
theorem live1_3 : ∀ t : Fin cfg1.N, cfg1.idle 3 (grid1.coords t) = false := fun _ => rfl
theorem live1_4 : ∀ t : Fin cfg1.N, cfg1.idle 4 (grid1.coords t) = false := fun _ => rfl
theorem idle1_5 : ∀ t : Fin cfg1.N, ¬condLast (grid1.coords t) → cfg1.idle 5 (grid1.coords t) = true := by decide +kernel
theorem noFlush1_5 : ∀ t : Fin cfg1.N, ¬condLast (grid1.coords t) → (cfg1.win 5).flush t = false := by decide +kernel
theorem live1_5 : ∀ t : Fin cfg1.N, condLast (grid1.coords t) → cfg1.idle 5 (grid1.coords t) = false := by decide +kernel

/-! ## The body obligation -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns: a window's buffer at what the body leaves, or, where the window is idle and not written back,
    as it was found. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t)

set_option maxHeartbeats 4000000 in
/-- The body at any point, by the point's case (first, middle, last): the inputs' buffers hold their blocks, the scratch row
    holds the running total (anything at the first point), and the case's triple applies. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = Phi1 V c (t.val + 1) from rfl, Phi1_succ, acc1_succ V c t, Phi1_castSucc V c t]
  rw [show (dat1 V c).leavesExact 0 t = owns (c : Thread nD τ) (st1_0 t) fullShare ((dat1 V c).after 0 t) from by
    unfold Dat.leavesExact; rw [live1_0 t], after1_0]
  rw [show (dat1 V c).leavesExact 1 t = owns (c : Thread nD τ) (st1_1 t) fullShare ((dat1 V c).after 1 t) from by
    unfold Dat.leavesExact; rw [live1_1 t], after1_1]
  rw [show (dat1 V c).leavesExact 2 t = owns (c : Thread nD τ) (st1_2 t) fullShare ((dat1 V c).after 2 t) from by
    unfold Dat.leavesExact; rw [live1_2 t], after1_2]
  rw [show (dat1 V c).leavesExact 3 t = owns (c : Thread nD τ) (st1_3 t) fullShare ((dat1 V c).after 3 t) from by
    unfold Dat.leavesExact; rw [live1_3 t], after1_3]
  rw [show (dat1 V c).leavesExact 4 t = owns (c : Thread nD τ) (st1_4 t) fullShare ((dat1 V c).after 4 t) from by
    unfold Dat.leavesExact; rw [live1_4 t], after1_4]
  have hN : t.val < 20 := lt_of_lt_of_eq t.isLt (show cfg1.N = 20 from N_1)
  by_cases h0 : t.val = 0
  · have hF : condFirst (grid1.coords t) := (hFirst t).mpr h0
    have hL : ¬condLast (grid1.coords t) := fun h => by have := (hLast t).mp h; omega
    rw [Dat.leavesExact_idle (dat1 V c) 5 t (idle1_5 t hL) (noFlush1_5 t hL)]
    rw [h0, show Phi1 V c 0 = Pipeline.ΦA spec1 c from rfl, PhiA1_eq, acc1_zero]
    iintro ⟨⟨⟨HS, HR⟩, Hg⟩, Ho, ⟨%d0, H0⟩, ⟨%d1, H1⟩, ⟨%d2, H2⟩, ⟨%d3, H3⟩, ⟨%d4, H4⟩, ⟨%d5, H5⟩⟩
    iapply (sound_first c Set.univ (grid1.coords t) _ _ _ _ _ _ _ _ _ _ _ _ _ _ hF hL
      (iblk1 V c 0 t) (iblk1 V c 1 t) (iblk1 V c 2 t) (iblk1 V c 3 t) (iblk1 V c 4 t) ((dat1 V c).before 5 t d5) _)
    isplitl [H0]; · iexact H0
    isplitl [H1]; · iexact H1
    isplitl [H2]; · iexact H2
    isplitl [H3]; · iexact H3
    isplitl [H4]; · iexact H4
    isplitl [H5]; · iexact H5
    isplitl [HS]; · iexact HS
    iintro ⟨H0, H1, H2, H3, H4, H5, HS⟩
    isplitl [HS HR Hg]
    · isplitl [HS HR]
      · isplitl [HS]; · iexact HS
        iexact HR
      iexact Hg
    isplitl [Ho]; · iexact Ho
    isplitl [H0]; · iexact H0
    isplitl [H1]; · iexact H1
    isplitl [H2]; · iexact H2
    isplitl [H3]; · iexact H3
    isplitl [H4]; · iexact H4
    iexists d5; iexact H5
  · have hF : ¬condFirst (grid1.coords t) := fun h => h0 ((hFirst t).mp h)
    rw [Phi1_pos V c t.val h0]
    by_cases h19 : t.val = 19
    · have hL : condLast (grid1.coords t) := (hLast t).mpr h19
      rw [show (dat1 V c).leavesExact 5 t = owns (c : Thread nD τ) (st1_5 t) fullShare ((dat1 V c).after 5 t) from by
        unfold Dat.leavesExact; rw [live1_5 t hL], after1_5, acc1_succ V c t]
      iintro ⟨⟨⟨HS, HR⟩, Hg⟩, Ho, ⟨%d0, H0⟩, ⟨%d1, H1⟩, ⟨%d2, H2⟩, ⟨%d3, H3⟩, ⟨%d4, H4⟩, ⟨%d5, H5⟩⟩
      iapply (sound_last c Set.univ (grid1.coords t) _ _ _ _ _ _ _ _ _ _ _ _ _ _ hF hL
        (iblk1 V c 0 t) (iblk1 V c 1 t) (iblk1 V c 2 t) (iblk1 V c 3 t) (iblk1 V c 4 t) (acc1 V c t.val) _)
      isplitl [H0]; · iexact H0
      isplitl [H1]; · iexact H1
      isplitl [H2]; · iexact H2
      isplitl [H3]; · iexact H3
      isplitl [H4]; · iexact H4
      isplitl [H5]; · iexists _; iexact H5
      isplitl [HS]; · iexact HS
      iintro ⟨H0, H1, H2, H3, H4, H5, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      isplitl [H4]; · iexact H4
      iexact H5
    · have hL : ¬condLast (grid1.coords t) := fun h => h19 ((hLast t).mp h)
      rw [Dat.leavesExact_idle (dat1 V c) 5 t (idle1_5 t hL) (noFlush1_5 t hL)]
      iintro ⟨⟨⟨HS, HR⟩, Hg⟩, Ho, ⟨%d0, H0⟩, ⟨%d1, H1⟩, ⟨%d2, H2⟩, ⟨%d3, H3⟩, ⟨%d4, H4⟩, ⟨%d5, H5⟩⟩
      iapply (sound_mid c Set.univ (grid1.coords t) _ _ _ _ _ _ _ _ _ _ _ _ _ _ hF hL
        (iblk1 V c 0 t) (iblk1 V c 1 t) (iblk1 V c 2 t) (iblk1 V c 3 t) (iblk1 V c 4 t) ((dat1 V c).before 5 t d5) (acc1 V c t.val) _)
      isplitl [H0]; · iexact H0
      isplitl [H1]; · iexact H1
      isplitl [H2]; · iexact H2
      isplitl [H3]; · iexact H3
      isplitl [H4]; · iexact H4
      isplitl [H5]; · iexact H5
      isplitl [HS]; · iexact HS
      iintro ⟨H0, H1, H2, H3, H4, H5, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      isplitl [H4]; · iexact H4
      iexists d5; iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- Before the first point the invariant is the class's; -/
theorem hin1 (c : Dev nD) : Pipeline.ΦA spec1 c ⊢ (dat1 V c).Φ 0 := by
  rw [show (dat1 V c).Φ 0 = Pipeline.ΦA spec1 c from rfl]

/-- after the last point it gives the class's back, the running total's contents forgotten. -/
theorem hout1 (c : Dev nD) : (dat1 V c).Φ (Fin.last cfg1.N) ⊢ Pipeline.ΦA spec1 c := by
  rw [show (dat1 V c).Φ (Fin.last cfg1.N) = Phi1 V c (Fin.last cfg1.N).val from rfl,
    Phi1_pos V c _ (by rw [Fin.val_last]; have : cfg1.N = 20 := N_1; omega), PhiA1_eq]
  iintro ⟨⟨HS, HR⟩, Hg⟩
  isplitl [HS HR]
  · isplitl [HS]; · iexists _; iexact HS
    iexact HR
  iexact Hg

end Cert.Kernel.Pool

end
-- ==== Proof.K.Frame.lean ====
/-
  The program's run: host operations, the first dense layer's region, host operations, the second region.
  Between two items every unscoped buffer is held at named contents: the launch memory, then what each stretch of host
  operations computes, then, after a region, the region's result array at what its write-backs leave. The two regions enter
  the run as segments over those thread states; the run ends with the result array at what the second region leaves and
  every argument array as launched.
-/
import proofs.«102334_j81604378624770_1_alg».proof.Proof.K.RunCond
import proofs.«102334_j81604378624770_1_alg».proof.Proof.K.Lin
import proofs.«102334_j81604378624770_1_alg».proof.Proof.K.Pool
import Idealize.ShloMosaic.Lib.Pipeline.FrameSuffix
import Idealize.ShloMosaic.Lib.Pipeline.RegionsLoop

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- The buffers' contents when the first region is entered, read at the core's references. -/
abbrev E1 : (c : Dev nD) → (b : Ref sig .tc) → Buf (Elt F) ((c : Thread nD τ).loc b) := fun c b => Gen.V1 m c b

/-- At the first region's exit: its arrays at what the pipeline leaves, every other buffer as entered. -/
def X2 (c : Dev nD) : Valuation τ sig (Elt F) :=
  Pipeline.withArrays spec0 c (Gen.V1 m c) fun w => (Lin.dat0 (E1 m) c).arrAt w cfg0.N

/-- What the first region leaves, as the unknowns the generated valuations are written over. -/
def outsA : Gen.Outs (F := F) := fun _ r c => X2 m c r

/-- The buffers' contents when the second region is entered. -/
abbrev E3 : (c : Dev nD) → (b : Ref sig .tc) → Buf (Elt F) ((c : Thread nD τ).loc b) := fun c b => Gen.V3 m (outsA m) c b

/-- At the second region's exit. -/
def X4 (c : Dev nD) : Valuation τ sig (Elt F) :=
  Pipeline.withArrays spec1 c (Gen.V3 m (outsA m) c) fun w => (Pool.dat1 (E3 m) c).arrAt w cfg1.N

/-- What each region leaves: the first region's result array after item 1, the second's after item 3. -/
def outs : Gen.Outs (F := F) := fun J r c => if J = 4 then X4 m c r else X2 m c r

theorem V2_outs (c : Dev nD) : Gen.V2 m (outs m) c = Gen.V2 m (outsA m) c := rfl
theorem V3_outs (c : Dev nD) : Gen.V3 m (outs m) c = Gen.V3 m (outsA m) c := rfl

/-- The first region's result array, after it: what its write-backs leave. -/
theorem outs_2_v11 (c : Dev nD) : outs m 2 main_v11 c = (Lin.dat0 (E1 m) c).arrAt 3 cfg0.N := by
  show X2 m c (Proc.devRef .tc (Pipeline.arrRef spec0 3)) = _
  unfold X2; exact Pipeline.withArrays_arr spec0 launch0.win.arr_inj c _ _ 3

/-- The second region's result array, after it. -/
theorem outs_4_v24 (c : Dev nD) : outs m 4 main_v24 c = (Pool.dat1 (E3 m) c).arrAt 5 cfg1.N := by
  show X4 m c (Proc.devRef .tc (Pipeline.arrRef spec1 5)) = _
  unfold X4; exact Pipeline.withArrays_arr spec1 launch1.win.arr_inj c _ _ 5

/-- The buffers' contents after the first region, and after the second, read at the core's references. -/
abbrev E2 : (c : Dev nD) → (b : Ref sig .tc) → Buf (Elt F) ((c : Thread nD τ).loc b) := fun c b => Gen.V2 m (outs m) c b
abbrev E4 : (c : Dev nD) → (b : Ref sig .tc) → Buf (Elt F) ((c : Thread nD τ).loc b) := fun c b => Gen.V4 m (outs m) c b

/-- After the first region each of its arrays holds what the pipeline leaves: an input as entered, the result array the
    write-backs' contents. -/
theorem hF0 (c : Dev nD) (w : Fin cfg0.W) :
    (Lin.dat0 (E1 m) c).arrAt w cfg0.N = Gen.V2 m (outs m) c (Pipeline.arrRef spec0 w) := by
  match w with
  | ⟨0, _⟩ => exact ((Lin.dat0 (E1 m) c).arrAt_in 0 rfl _).trans ((Lin.A_eq0 (E1 m) c 0).trans (Gen.V2_of m (outs m) c main_v9 (by decide)).symm)
  | ⟨1, _⟩ => exact ((Lin.dat0 (E1 m) c).arrAt_in 1 rfl _).trans ((Lin.A_eq0 (E1 m) c 1).trans (Gen.V2_of m (outs m) c main_arg3 (by decide)).symm)
  | ⟨2, _⟩ => exact ((Lin.dat0 (E1 m) c).arrAt_in 2 rfl _).trans ((Lin.A_eq0 (E1 m) c 2).trans (Gen.V2_of m (outs m) c main_v10 (by decide)).symm)
  | ⟨3, _⟩ =>
    show _ = Gen.V2 m (outs m) c main_v11
    rw [Gen.V2, Function.update_self]; exact (outs_2_v11 m c).symm

/-- and every buffer that is none of its arrays holds what it held at entry. -/
theorem hrest0 (c : Dev nD) : ∀ b, b ∉ Finset.univ.image (Pipeline.arrRef spec0) → Gen.V2 m (outs m) c b = E1 m c b :=
  fun b hb => Gen.V2_of m (outs m) c b (by
    intro h; rw [List.mem_singleton] at h; subst h
    exact hb (Finset.mem_image.mpr ⟨3, Finset.mem_univ _, rfl⟩))

theorem hF1 (c : Dev nD) (w : Fin cfg1.W) :
    (Pool.dat1 (E3 m) c).arrAt w cfg1.N = Gen.V4 m (outs m) c (Pipeline.arrRef spec1 w) := by
  match w with
  | ⟨0, _⟩ => exact ((Pool.dat1 (E3 m) c).arrAt_in 0 rfl _).trans ((Pool.A_eq1 (E3 m) c 0).trans (Gen.V4_of m (outs m) c main_v21 (by decide)).symm)
  | ⟨1, _⟩ => exact ((Pool.dat1 (E3 m) c).arrAt_in 1 rfl _).trans ((Pool.A_eq1 (E3 m) c 1).trans (Gen.V4_of m (outs m) c main_arg5 (by decide)).symm)
  | ⟨2, _⟩ => exact ((Pool.dat1 (E3 m) c).arrAt_in 2 rfl _).trans ((Pool.A_eq1 (E3 m) c 2).trans (Gen.V4_of m (outs m) c main_v22 (by decide)).symm)
  | ⟨3, _⟩ => exact ((Pool.dat1 (E3 m) c).arrAt_in 3 rfl _).trans ((Pool.A_eq1 (E3 m) c 3).trans (Gen.V4_of m (outs m) c main_arg7 (by decide)).symm)
  | ⟨4, _⟩ => exact ((Pool.dat1 (E3 m) c).arrAt_in 4 rfl _).trans ((Pool.A_eq1 (E3 m) c 4).trans (Gen.V4_of m (outs m) c main_v23 (by decide)).symm)
  | ⟨5, _⟩ =>
    show _ = Gen.V4 m (outs m) c main_v24
    rw [Gen.V4, Function.update_self]; exact (outs_4_v24 m c).symm

theorem hrest1 (c : Dev nD) : ∀ b, b ∉ Finset.univ.image (Pipeline.arrRef spec1) → Gen.V4 m (outs m) c b = E3 m c b :=
  fun b hb => Gen.V4_of m (outs m) c b (by
    intro h; rw [List.mem_singleton] at h; subst h
    exact hb (Finset.mem_image.mpr ⟨5, Finset.mem_univ _, rfl⟩))

/-- Every pipeline's proof data, each at its region's entry contents. -/
def pdats : (p : Fin 2) → (c : Dev nD) → Dat τ (Elt F) Unit ℕ (UR sig nD τ) ℕ (cfgs p) c
  | ⟨0, _⟩ => fun c => Lin.dat0 (E1 m) c
  | ⟨1, _⟩ => fun c => Pool.dat1 (E3 m) c

/-- No core owes another anything: no level is assigned. -/
abbrev L0 : GSem nD τ sig → Finset Unit := fun _ => ∅
abbrev lv0 : GSem nD τ sig → Unit → ℕ := fun _ _ => 0

/-- What rides beside the buffers through every item: the generator register at some state, and the core owing nothing. -/
abbrev Rst (c : Dev nD) : sProp 𝕄 := iprop((∃ r, prngReg c r) ∗ ∃ W, owes (c : Thread nD τ) (0 : CellTallies nD τ sig Unit) W)

set_option backward.isDefEq.respectTransparency.types false in
/-- Region 0 over the thread states: entered with every unscoped buffer at the entry contents, left with the region's arrays
    at what the write-backs leave and every other buffer as entered; the generator register goes into the invariant and comes
    back; nothing is owed; the kernel has no semaphore of its own. -/
def reg0 : Pipeline.RegionSeg (pcfgs (F := F)) Gen.adm (pdats m) () defs₀ Variants.none L0 lv0 0 where
  win := launch0.win.to₀
  block_pos := launch0.block_pos
  stage_whole := launch0.stage_whole
  K := PEmpty
  osem k := k.elim
  ho := Pipeline.OwnSemFacts.none _
  hbody c := (Lin.body_obligation0 (E1 m) c).loose
  hwaits := Pipeline.hwaits_of_owed_zero _ _ _ _ L0 lv0 0 fun _ _ => rfl
  pre c := iprop(StableHlo.held (c : Thread nD τ) (Pipeline.ucRefs τ sig) (Gen.V1 m c) ∗ Rst (F := F) c)
  post c := iprop(StableHlo.held (c : Thread nD τ) (Pipeline.ucRefs τ sig) (Gen.V2 m (outs m) c) ∗ Rst (F := F) c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    rw [show (pdats m 0 c).Φ (Fin.last _) = Pipeline.ΦA spec0 c from rfl]
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (E1 m c) (E2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread states: entered with every unscoped buffer at the entry contents, left with the region's arrays
    at what the write-backs leave and every other buffer as entered; the generator register goes into the invariant and comes
    back; nothing is owed; the kernel has no semaphore of its own. -/
def reg1 : Pipeline.RegionSeg (pcfgs (F := F)) Gen.adm (pdats m) () defs₀ Variants.none L0 lv0 1 where
  win := launch1.win.to₀
  block_pos := launch1.block_pos
  stage_whole := launch1.stage_whole
  K := PEmpty
  osem k := k.elim
  ho := Pipeline.OwnSemFacts.none _
  hbody c := (Pool.body_obligation1 (E3 m) c).loose
  hwaits := Pipeline.hwaits_of_owed_zero _ _ _ _ L0 lv0 1 fun _ _ => rfl
  pre c := iprop(StableHlo.held (c : Thread nD τ) (Pipeline.ucRefs τ sig) (Gen.V3 m (outsA m) c) ∗ Rst (F := F) c)
  post c := iprop(StableHlo.held (c : Thread nD τ) (Pipeline.ucRefs τ sig) (Gen.V4 m (outs m) c) ∗ Rst (F := F) c)
  X c := iprop(∃ r, prngReg c r)
  Y c := iprop(∃ r, prngReg c r)
  Z c := Pipeline.unscopedRest (Ix := Unit) (Name := ℕ) (U := UR sig nD τ) (Lvl := ℕ) spec1 c (E3 m c)
  hentry c := by
    rw [Pipeline.ownSems0_none]
    have hsplit := Pipeline.arrays_of_unscopedBufs (p := 1) (pcfgs (F := F)) Gen.adm (pdats m) launch1.win launch1.arr_whole c
      ((pdats m 1 c).share_full fun _ => rfl) (E3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (show (pdats m 1 c).Φ (Fin.last _) ⊢ Pipeline.ΦA spec1 c from Pool.hout1 (E3 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) Gen.adm (Ix := Unit) (Name := ℕ) (U := UR sig nD τ) (Lvl := ℕ)
      launch1.win launch1.arr_whole c (pdats m) ((pdats m 1 c).share_full fun _ => rfl)
      (E3 m c) (E4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- THE RUN. From any memory with zero counters every weakly fair execution of the program terminates, nothing faulting; the
    result array ends at what the second region's write-back leaves and every argument array as launched. -/
theorem run (ρ : Dev nD → PrngReg) :
    θ_run defs (onTc (τ := τ) (main (F := F))) ⟨m, fun _ => 0, ρ⟩ (fun r => ∀ c : Dev nD,
      r.2.mem ((c.tc : Thread nD τ).loc main_v24) = (Pool.dat1 (E3 m) c).arrAt 5 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) := by
  have h := GenP.run_cond (F := F) m (emb₁ : Emb (UR sig nD τ) 𝕄) () Variants.none L0 lv0 (fun _ _ => rfl) ρ (outs m) (pdats m)
    (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => Rst (F := F) c)
    (hE0 := by
      iintro ⟨H, -⟩
      imodintro
      iapply (show (bigSep Finset.univ fun c : Dev nD => (iprop(unscopedSems0 c ∗ owes (c : Thread nD τ) ((0 : Dev nD → CellTallies nD τ sig Unit) c) ∅
            ∗ Pipeline.launchCred (0 : Dev nD → CellTallies nD τ sig Unit) c ∗ prngReg c (ρ c) ∗ iprop(emp)) : sProp 𝕄))
          ⊢ bigSep Finset.univ fun c : Dev nD => Rst (F := F) c from bigSep_mono fun c _ => (show (iprop(unscopedSems0 c ∗ owes (c : Thread nD τ) ((0 : Dev nD → CellTallies nD τ sig Unit) c) ∅
            ∗ Pipeline.launchCred (0 : Dev nD → CellTallies nD τ sig Unit) c ∗ prngReg c (ρ c) ∗ iprop(emp)) : sProp 𝕄) ⊢ Rst (F := F) c from by
          iintro ⟨-, HO, -, Hp, -⟩
          isplitl [Hp]; · iexists _; iexact Hp
          iexists ∅; iexact HO))
      iexact H)
    (hE2 := fun c => by iintro ⟨-, H⟩; iexact H)
    (reg0 m) (fun _ => .rfl) (fun _ => .rfl)
    (reg1 m) (fun c => Entails.of_eq (by rw [V3_outs m c]; rfl)) (fun _ => .rfl)
  exact (θ_run defs _ _).mono (fun r hr c => ⟨(hr c).1.trans (outs_4_v24 m c), (hr c).2⟩) h

end Cert.Kernel.Frame

end
-- ==== Proof.KI.Lin.lean ====
/-
  The first dense layer as a pipeline region (generic in the float instance).
  At a grid point the body reads a block of 5000 rows of the aggregated features, the whole 128x128 weight
  and the one-row bias, and stores into the output block the rectified affine image of the rows; nothing is
  carried from point to point. Stated at a parameter `V`: the buffers' contents when the region is entered.
-/
import proofs.«102334_j81604378624770_1_alg».proof.Proof.Gen.KernelIdeal.Launch
import proofs.«102334_j81604378624770_1_alg».proof.Proof.Gen.KernelIdeal.Skeleton
import proofs.«102334_j81604378624770_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Lin

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not: where it is not
    fetched its block index has not moved. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The whole-buffer rectangles the body reads and writes through. -/
abbrev rRows : Rect S5000x128 := Rect.unit (s := S5000x128) ![0, 0] S5000x128.size inb_S5000x128_S5000x128_0_0
abbrev rW : Rect S128x128 := Rect.unit (s := S128x128) ![0, 0] S128x128.size inb_S128x128_S128x128_0_0
abbrev rB : Rect S1x128 := Rect.unit (s := S1x128) ![0, 0] S1x128.size inb_S1x128_S1x128_0_0

/-- What the body leaves in the output block, from the three input blocks: its one store, read back. -/
def lin0 (x0 : Vec F S5000x128 .f32) (x1 : Vec F S128x128 .f32) (x2 : Vec F S1x128 .f32) : Vec F S5000x128 .f32 :=
  View.canon [⟨rRows, k0_pay1 (View.ld x0 rRows) (View.ld x1 rW) (View.ld x2 rB)⟩]

/-- The one store covers the block. -/
theorem cover0_3 (p0 : Vec F S5000x128 .f32) (y : S5000x128.Idx) :
    ∃ pc ∈ ([⟨rRows, p0⟩] : List (View.Piece (Elt F) S5000x128 .f32)), y ∈ pc.1.set :=
  View.cover_of_tiled [⟨rRows, p0⟩] S5000x128.size (by rfl) y

set_option maxHeartbeats 1000000 in
/-- The body on whole staging memrefs: the inputs are left as found, the output block ends at `lin0` of them. -/
theorem sound_kernel0 (c : Dev nD) (E : Set ℕ) (i : grid0.Coords) (arg1 : Memref sig .tc .vmem S5000x128 .f32) (harg1 : arg1.IsWhole)
    (arg2 : Memref sig .tc .vmem S128x128 .f32) (harg2 : arg2.IsWhole) (arg3 : Memref sig .tc .vmem S1x128 .f32) (harg3 : arg3.IsWhole)
    (arg4 : Memref sig .tc .vmem S5000x128 .f32) (harg4 : arg4.IsWhole)
    (x0 : Vec F S5000x128 .f32) (x1 : Vec F S128x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (lin0 x0 x1 x2)) -∗ K ⟨⟩))
      ⊢ wp frame (wpE (defs₀ (F := F)) Variants.none c none) E (cc0__linear_relu_kernel i arg1 harg1 arg2 harg2 arg3 harg3 arg4 harg4) K := by
  simp only [cc0__linear_relu_kernel_eq_skeleton]; unfold cc0__linear_relu_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-- The region's proof data on core `c`: the arrays as the region finds them; after the body each input's buffer at its
    block and the output's at `lin0` of the blocks; the invariant the scoped rest and the generator register, untouched;
    nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => lin0 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = lin0 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Lin

end
-- ==== Proof.KI.Pool.lean ====
/-
  The second dense layer fused with the sum over nodes and the last layer, as a pipeline region (generic in the float
  instance). At a grid point the body reads a block of 5000 rows of the aggregated hidden features, computes the
  rectified affine image of the rows, sums it over the rows and adds the row of sums to a running total kept in a
  scratch row; the total is reset to zero at the first point, and at the last point the last layer's rectified affine
  image of the total is stored into the one-row result. Stated at a parameter `V`: the buffers' contents when the region
  is entered.
-/
import proofs.«102334_j81604378624770_1_alg».proof.Proof.Gen.KernelIdeal.Launch
import proofs.«102334_j81604378624770_1_alg».proof.Proof.Gen.KernelIdeal.Skeleton
import proofs.«102334_j81604378624770_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Pipeline.Value
import Idealize.ShloMosaic.Lib.Tactic

set_option maxRecDepth 16384

noncomputable section

namespace Cert.KernelIdeal.Pool

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The whole-buffer rectangles the body reads and writes through. -/
abbrev rRows : Rect S5000x128 := Rect.unit (s := S5000x128) ![0, 0] S5000x128.size inb_S5000x128_S5000x128_0_0
abbrev rW : Rect S128x128 := Rect.unit (s := S128x128) ![0, 0] S128x128.size inb_S128x128_S128x128_0_0
abbrev rB : Rect S1x128 := Rect.unit (s := S1x128) ![0, 0] S1x128.size inb_S1x128_S1x128_0_0
abbrev rW3 : Rect S128x256 := Rect.unit (s := S128x256) ![0, 0] S128x256.size inb_S128x256_S128x256_0_0
abbrev rO : Rect S1x256 := Rect.unit (s := S1x256) ![0, 0] S1x256.size inb_S1x256_S1x256_0_0

/-- The two branch conditions of the body, from the grid coordinates. -/
abbrev condFirst (i : grid1.Coords) : Prop := (Scalar.cmpi .ne (Scalar.extui (Scalar.cmpi .eq (BitVec.ofNat 32 (i 0).val) 0#32)) 0#32) = 1#1
abbrev condLast (i : grid1.Coords) : Prop := k1_cond2 i = 1#1

theorem hz2 : (![0, 0] : Fin 2 → Nat) = fun _ => 0 := funext fun a => by fin_cases a <;> rfl

/-- A list of stores whose LAST one is through the whole row covers the row; the same for the result row. -/
theorem covR (p : Vec F S1x128 .f32) (L : List (View.Piece (Elt F) S1x128 .f32)) (y : S1x128.Idx) :
    ∃ pc ∈ ((⟨rB, p⟩ : View.Piece (Elt F) S1x128 .f32) :: L), y ∈ pc.1.set :=
  ⟨_, List.mem_cons.mpr (Or.inl rfl), View.mem_set_unit_zero hz2 inb_S1x128_S1x128_0_0 y⟩
theorem covO (p : Vec F S1x256 .f32) (L : List (View.Piece (Elt F) S1x256 .f32)) (y : S1x256.Idx) :
    ∃ pc ∈ ((⟨rO, p⟩ : View.Piece (Elt F) S1x256 .f32) :: L), y ∈ pc.1.set :=
  ⟨_, List.mem_cons.mpr (Or.inl rfl), View.mem_set_unit_zero hz2 inb_S1x256_S1x256_0_0 y⟩

/-- The running total after a point, from the block of rows, the weight, the bias row and the total before it:
    the total plus the row of column sums of the rectified affine image of the block. -/
abbrev accStep (x0 : Vec F S5000x128 .f32) (x1 : Vec F S128x128 .f32) (x2 : Vec F S1x128 .f32) (s : Vec F S1x128 .f32) : Vec F S1x128 .f32 :=
  k1_pay2 x0 x1 x2 s

/-- The zero row the first point resets the total to. -/
abbrev accZero : Vec F S1x128 .f32 := k1_pay1

/-- The result row, from the final total, the last weight and the last bias row. -/
abbrev headOf (s : Vec F S1x128 .f32) (x3 : Vec F S128x256 .f32) (x4 : Vec F S1x256 .f32) : Vec F S1x256 .f32 :=
  k1_pay3 s x3 x4

set_option maxHeartbeats 1000000 in
/-- The first point: the scratch row, whatever it held, is reset to zero and then increased; every window's buffer, the
    result's included, is left as found. -/
theorem sound_first (c : Dev nD) (E : Set ℕ) (i : grid1.Coords)
    (arg1 : Memref sig .tc .vmem S5000x128 .f32) (harg1 : arg1.IsWhole) (arg2 : Memref sig .tc .vmem S128x128 .f32) (harg2 : arg2.IsWhole)
    (arg3 : Memref sig .tc .vmem S1x128 .f32) (harg3 : arg3.IsWhole) (arg4 : Memref sig .tc .vmem S128x256 .f32) (harg4 : arg4.IsWhole)
    (arg5 : Memref sig .tc .vmem S1x256 .f32) (harg5 : arg5.IsWhole) (arg6 : Memref sig .tc .vmem S1x256 .f32) (harg6 : arg6.IsWhole)
    (arg7 : Memref sig .tc .vmem S1x128 .f32) (harg7 : arg7.IsWhole)
    (hc0 : condFirst i) (hc1 : ¬condLast i)
    (x0 : Vec F S5000x128 .f32) (x1 : Vec F S128x128 .f32) (x2 : Vec F S1x128 .f32) (x3 : Vec F S128x256 .f32) (x4 : Vec F S1x256 .f32)
    (xo : Vec F S1x256 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ owns (c : Thread nD τ) arg6 fullShare xo ∗ (∃ d, owns (c : Thread nD τ) arg7 fullShare d)
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
            ∗ owns (c : Thread nD τ) arg6 fullShare xo ∗ owns (c : Thread nD τ) arg7 fullShare (accStep x0 x1 x2 accZero)) -∗ K ⟨⟩))
      ⊢ wp frame (wpE (defs₀ (F := F)) Variants.none c none) E (cc1__layer2_pool_kernel i arg1 harg1 arg2 harg2 arg3 harg3 arg4 harg4 arg5 harg5 arg6 harg6 arg7 harg7) K := by
  simp only [cc1__layer2_pool_kernel_eq_skeleton]; unfold cc1__layer2_pool_kernel_skel
  unfold owns
  iintro ⟨⟨%f0, %hf0, H0⟩, ⟨%f1, %hf1, H1⟩, ⟨%f2, %hf2, H2⟩, ⟨%f3, %hf3, H3⟩, ⟨%f4, %hf4, H4⟩, ⟨%f6, %hf6, H6⟩, ⟨%d7, %f7, -, H7⟩, Hk⟩
  subst hf0; subst hf1; subst hf2; subst hf3; subst hf4; subst hf6
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H6]
  · iexists f6; isplitr; · ipureintro; rfl
    iexact H6
  iexists _; isplitr
  swap; · iexact H7
  ipureintro
  sl_unfold_words
  rw [View.read_writes_eq_canon _ _ _ (covR _ _)]
  rw [View.canon_cons_unit_zero (S := S1x128) hz2, View.readCov_unit_zero (S := S1x128) _ hz2]
  simp only [View.readAt_eq_ld, View.ld_unit_zero (S := S5000x128) hz2, View.ld_unit_zero (S := S128x128) hz2, View.ld_unit_zero (S := S1x128) hz2, View.ld_unit_zero (S := S128x256) hz2, View.ld_unit_zero (S := S1x256) hz2]

set_option maxHeartbeats 1000000 in
/-- A middle point (neither the first nor the last): the scratch row goes from `s` to `accStep … s`; every window's
    buffer, the result's included, is left as found. -/
theorem sound_mid (c : Dev nD) (E : Set ℕ) (i : grid1.Coords)
    (arg1 : Memref sig .tc .vmem S5000x128 .f32) (harg1 : arg1.IsWhole) (arg2 : Memref sig .tc .vmem S128x128 .f32) (harg2 : arg2.IsWhole)
    (arg3 : Memref sig .tc .vmem S1x128 .f32) (harg3 : arg3.IsWhole) (arg4 : Memref sig .tc .vmem S128x256 .f32) (harg4 : arg4.IsWhole)
    (arg5 : Memref sig .tc .vmem S1x256 .f32) (harg5 : arg5.IsWhole) (arg6 : Memref sig .tc .vmem S1x256 .f32) (harg6 : arg6.IsWhole)
    (arg7 : Memref sig .tc .vmem S1x128 .f32) (harg7 : arg7.IsWhole)
    (hc0 : ¬condFirst i) (hc1 : ¬condLast i)
    (x0 : Vec F S5000x128 .f32) (x1 : Vec F S128x128 .f32) (x2 : Vec F S1x128 .f32) (x3 : Vec F S128x256 .f32) (x4 : Vec F S1x256 .f32)
    (xo : Vec F S1x256 .f32) (s : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ owns (c : Thread nD τ) arg6 fullShare xo ∗ owns (c : Thread nD τ) arg7 fullShare s
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
            ∗ owns (c : Thread nD τ) arg6 fullShare xo ∗ owns (c : Thread nD τ) arg7 fullShare (accStep x0 x1 x2 s)) -∗ K ⟨⟩))
      ⊢ wp frame (wpE (defs₀ (F := F)) Variants.none c none) E (cc1__layer2_pool_kernel i arg1 harg1 arg2 harg2 arg3 harg3 arg4 harg4 arg5 harg5 arg6 harg6 arg7 harg7) K := by
  simp only [cc1__layer2_pool_kernel_eq_skeleton]; unfold cc1__layer2_pool_kernel_skel
  unfold owns
  iintro ⟨⟨%f0, %hf0, H0⟩, ⟨%f1, %hf1, H1⟩, ⟨%f2, %hf2, H2⟩, ⟨%f3, %hf3, H3⟩, ⟨%f4, %hf4, H4⟩, ⟨%f6, %hf6, H6⟩, ⟨%f7, %hf7, H7⟩, Hk⟩
  subst hf0; subst hf1; subst hf2; subst hf3; subst hf4; subst hf6; subst hf7
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H6]
  · iexists f6; isplitr; · ipureintro; rfl
    iexact H6
  iexists _; isplitr
  swap; · iexact H7
  ipureintro
  sl_unfold_words
  rw [View.read_writes_eq_canon _ _ _ (covR _ _)]
  rw [View.canon_cons_unit_zero (S := S1x128) hz2]
  simp only [View.readAt_eq_ld, View.ld_unit_zero (S := S5000x128) hz2, View.ld_unit_zero (S := S128x128) hz2, View.ld_unit_zero (S := S1x128) hz2, View.ld_unit_zero (S := S128x256) hz2, View.ld_unit_zero (S := S1x256) hz2]

set_option maxHeartbeats 1000000 in
/-- The last point: the scratch row goes from `s` to `accStep … s`, and the result's buffer, whatever it held, ends at
    the last layer's image of that final total. -/
theorem sound_last (c : Dev nD) (E : Set ℕ) (i : grid1.Coords)
    (arg1 : Memref sig .tc .vmem S5000x128 .f32) (harg1 : arg1.IsWhole) (arg2 : Memref sig .tc .vmem S128x128 .f32) (harg2 : arg2.IsWhole)
    (arg3 : Memref sig .tc .vmem S1x128 .f32) (harg3 : arg3.IsWhole) (arg4 : Memref sig .tc .vmem S128x256 .f32) (harg4 : arg4.IsWhole)
    (arg5 : Memref sig .tc .vmem S1x256 .f32) (harg5 : arg5.IsWhole) (arg6 : Memref sig .tc .vmem S1x256 .f32) (harg6 : arg6.IsWhole)
    (arg7 : Memref sig .tc .vmem S1x128 .f32) (harg7 : arg7.IsWhole)
    (hc0 : ¬condFirst i) (hc1 : condLast i)
    (x0 : Vec F S5000x128 .f32) (x1 : Vec F S128x128 .f32) (x2 : Vec F S1x128 .f32) (x3 : Vec F S128x256 .f32) (x4 : Vec F S1x256 .f32)
    (s : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d) ∗ owns (c : Thread nD τ) arg7 fullShare s
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
            ∗ owns (c : Thread nD τ) arg6 fullShare (headOf (accStep x0 x1 x2 s) x3 x4)
            ∗ owns (c : Thread nD τ) arg7 fullShare (accStep x0 x1 x2 s)) -∗ K ⟨⟩))
      ⊢ wp frame (wpE (defs₀ (F := F)) Variants.none c none) E (cc1__layer2_pool_kernel i arg1 harg1 arg2 harg2 arg3 harg3 arg4 harg4 arg5 harg5 arg6 harg6 arg7 harg7) K := by
  simp only [cc1__layer2_pool_kernel_eq_skeleton]; unfold cc1__layer2_pool_kernel_skel
  unfold owns
  iintro ⟨⟨%f0, %hf0, H0⟩, ⟨%f1, %hf1, H1⟩, ⟨%f2, %hf2, H2⟩, ⟨%f3, %hf3, H3⟩, ⟨%f4, %hf4, H4⟩, ⟨%d6, %f6, -, H6⟩, ⟨%f7, %hf7, H7⟩, Hk⟩
  subst hf0; subst hf1; subst hf2; subst hf3; subst hf4; subst hf7
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H6]
  · iexists _; isplitr
    swap; · iexact H6
    ipureintro
    sl_unfold_words
    rw [View.read_writes_eq_canon _ _ _ (covO _ _)]
    rw [View.canon_cons_unit_zero (S := S1x256) hz2, View.readCov_unit_zero (S := S1x128) _ hz2]
    simp only [View.readAt_eq_ld, View.ld_unit_zero (S := S5000x128) hz2, View.ld_unit_zero (S := S128x128) hz2, View.ld_unit_zero (S := S1x128) hz2, View.ld_unit_zero (S := S128x256) hz2, View.ld_unit_zero (S := S1x256) hz2]
  iexists _; isplitr
  swap; · iexact H7
  ipureintro
  sl_unfold_words
  rw [View.read_writes_eq_canon _ _ _ (covR _ _)]
  rw [View.canon_cons_unit_zero (S := S1x128) hz2]
  simp only [View.readAt_eq_ld, View.ld_unit_zero (S := S5000x128) hz2, View.ld_unit_zero (S := S128x128) hz2, View.ld_unit_zero (S := S1x128) hz2, View.ld_unit_zero (S := S128x256) hz2, View.ld_unit_zero (S := S1x256) hz2]

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not: where it is not
    fetched its block index has not moved. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- The scratch row, as a memref. -/
abbrev scM : Memref sig .tc .vmem S1x128 .f32 := Memref.whole cc1_scratch0

/-- The running total BEFORE point `n` (after point `n - 1`): zero, then increased point by point by the column sums
    of the rectified affine image of the point's block of rows. -/
def acc1 (c : Dev nD) : ℕ → Vec F S1x128 .f32
  | 0 => accZero
  | n + 1 => if h : n < cfg1.N then accStep (iblk1 V c 0 ⟨n, h⟩) (iblk1 V c 1 ⟨n, h⟩) (iblk1 V c 2 ⟨n, h⟩) (acc1 c n) else acc1 c n

theorem acc1_zero (c : Dev nD) : acc1 V c 0 = accZero := rfl

theorem acc1_succ (c : Dev nD) (t : Fin cfg1.N) :
    acc1 V c (t.val + 1) = accStep (iblk1 V c 0 t) (iblk1 V c 1 t) (iblk1 V c 2 t) (acc1 V c t.val) := by
  rw [acc1, dif_pos t.isLt]

/-- The scoped buffers other than the scratch row and the staging buffers, at some contents each. -/
abbrev otherScoped (c : Dev nD) : sProp 𝕄 :=
  Pipeline.scopedRestBut (Ix := Unit) (Name := ℕ) (U := UR sig nD τ) (Lvl := ℕ) (Val := Elt F) spec1 c [cc1_scratch0]

/-- The region's class invariant with the scratch row split out. -/
theorem PhiA1_eq (c : Dev nD) :
    (Pipeline.ΦA spec1 c : sProp 𝕄)
      = iprop(iprop((∃ d, owns (c : Thread nD τ) scM fullShare d) ∗ otherScoped (F := F) c) ∗ (∃ r, prngReg c r)) := by
  unfold Pipeline.ΦA
  rw [Pipeline.scopedRest_split_of_list spec1 c [cc1_scratch0] (by decide) (by decide)]
  simp only [BI.bigSepL_singleton, scM, owns_whole]
  rfl

/-- The invariant before position `n`: before the first point the scratch row holds anything; afterwards it holds the
    running total. The other scoped buffers and the generator register ride along untouched. -/
def Phi1 (c : Dev nD) : ℕ → sProp 𝕄
  | 0 => Pipeline.ΦA spec1 c
  | n + 1 => iprop(iprop(owns (c : Thread nD τ) scM fullShare (acc1 V c (n + 1)) ∗ otherScoped (F := F) c) ∗ (∃ r, prngReg c r))

theorem Phi1_succ (c : Dev nD) (n : ℕ) :
    Phi1 V c (n + 1) = iprop(iprop(owns (c : Thread nD τ) scM fullShare (acc1 V c (n + 1)) ∗ otherScoped (F := F) c) ∗ (∃ r, prngReg c r)) := rfl

theorem Phi1_pos (c : Dev nD) (n : ℕ) (hn : n ≠ 0) :
    Phi1 V c n = iprop(iprop(owns (c : Thread nD τ) scM fullShare (acc1 V c n) ∗ otherScoped (F := F) c) ∗ (∃ r, prngReg c r)) := by
  cases n with
  | zero => exact absurd rfl hn
  | succ n => rfl

/-- The region's proof data on core `c`: the arrays as the region finds them; after the body each input's buffer at its
    block and the result's at the last layer's image of the running total after the point; the invariant `Phi1`; nothing
    owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => headOf (acc1 V c (t.val + 1)) (iblk1 V c 3 t) (iblk1 V c 4 t)
  Φ t := Phi1 V c t.val
  q _ := fullShare
  owed _ := 0

theorem A_eq1 (c : Dev nD) (w : Fin cfg1.W) : (dat1 V c).A w = V c (Pipeline.arrRef spec1 w) := by
  dsimp only [dat1]

theorem Phi1_castSucc (c : Dev nD) (t : Fin cfg1.N) : (dat1 V c).Φ t.castSucc = Phi1 V c t.val := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) :
    (dat1 V c).after 5 t = headOf (acc1 V c (t.val + 1)) (iblk1 V c 3 t) (iblk1 V c 4 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The branch conditions and the idle table, decided over the grid -/

theorem hFirst : ∀ t : Fin cfg1.N, condFirst (grid1.coords t) ↔ t.val = 0 :=
  (by decide +kernel : ∀ t : Fin grid1.N, condFirst (grid1.coords t) ↔ t.val = 0)
theorem hLast : ∀ t : Fin cfg1.N, condLast (grid1.coords t) ↔ t.val = 19 :=
  (by decide +kernel : ∀ t : Fin grid1.N, condLast (grid1.coords t) ↔ t.val = 19)
theorem live1_0 : ∀ t : Fin cfg1.N, cfg1.idle 0 (grid1.coords t) = false := fun _ => rfl
theorem live1_1 : ∀ t : Fin cfg1.N, cfg1.idle 1 (grid1.coords t) = false := fun _ => rfl
theorem live1_2 : ∀ t : Fin cfg1.N, cfg1.idle 2 (grid1.coords t) = false := fun _ => rfl
theorem live1_3 : ∀ t : Fin cfg1.N, cfg1.idle 3 (grid1.coords t) = false := fun _ => rfl
theorem live1_4 : ∀ t : Fin cfg1.N, cfg1.idle 4 (grid1.coords t) = false := fun _ => rfl
theorem idle1_5 : ∀ t : Fin cfg1.N, ¬condLast (grid1.coords t) → cfg1.idle 5 (grid1.coords t) = true := by decide +kernel
theorem noFlush1_5 : ∀ t : Fin cfg1.N, ¬condLast (grid1.coords t) → (cfg1.win 5).flush t = false := by decide +kernel
theorem live1_5 : ∀ t : Fin cfg1.N, condLast (grid1.coords t) → cfg1.idle 5 (grid1.coords t) = false := by decide +kernel

/-! ## The body obligation -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns: a window's buffer at what the body leaves, or, where the window is idle and not written back,
    as it was found. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t)

set_option maxHeartbeats 4000000 in
/-- The body at any point, by the point's case (first, middle, last): the inputs' buffers hold their blocks, the scratch row
    holds the running total (anything at the first point), and the case's triple applies. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = Phi1 V c (t.val + 1) from rfl, Phi1_succ, acc1_succ V c t, Phi1_castSucc V c t]
  rw [show (dat1 V c).leavesExact 0 t = owns (c : Thread nD τ) (st1_0 t) fullShare ((dat1 V c).after 0 t) from by
    unfold Dat.leavesExact; rw [live1_0 t], after1_0]
  rw [show (dat1 V c).leavesExact 1 t = owns (c : Thread nD τ) (st1_1 t) fullShare ((dat1 V c).after 1 t) from by
    unfold Dat.leavesExact; rw [live1_1 t], after1_1]
  rw [show (dat1 V c).leavesExact 2 t = owns (c : Thread nD τ) (st1_2 t) fullShare ((dat1 V c).after 2 t) from by
    unfold Dat.leavesExact; rw [live1_2 t], after1_2]
  rw [show (dat1 V c).leavesExact 3 t = owns (c : Thread nD τ) (st1_3 t) fullShare ((dat1 V c).after 3 t) from by
    unfold Dat.leavesExact; rw [live1_3 t], after1_3]
  rw [show (dat1 V c).leavesExact 4 t = owns (c : Thread nD τ) (st1_4 t) fullShare ((dat1 V c).after 4 t) from by
    unfold Dat.leavesExact; rw [live1_4 t], after1_4]
  have hN : t.val < 20 := lt_of_lt_of_eq t.isLt (show cfg1.N = 20 from N_1)
  by_cases h0 : t.val = 0
  · have hF : condFirst (grid1.coords t) := (hFirst t).mpr h0
    have hL : ¬condLast (grid1.coords t) := fun h => by have := (hLast t).mp h; omega
    rw [Dat.leavesExact_idle (dat1 V c) 5 t (idle1_5 t hL) (noFlush1_5 t hL)]
    rw [h0, show Phi1 V c 0 = Pipeline.ΦA spec1 c from rfl, PhiA1_eq, acc1_zero]
    iintro ⟨⟨⟨HS, HR⟩, Hg⟩, Ho, ⟨%d0, H0⟩, ⟨%d1, H1⟩, ⟨%d2, H2⟩, ⟨%d3, H3⟩, ⟨%d4, H4⟩, ⟨%d5, H5⟩⟩
    iapply (sound_first c Set.univ (grid1.coords t) _ _ _ _ _ _ _ _ _ _ _ _ _ _ hF hL
      (iblk1 V c 0 t) (iblk1 V c 1 t) (iblk1 V c 2 t) (iblk1 V c 3 t) (iblk1 V c 4 t) ((dat1 V c).before 5 t d5) _)
    isplitl [H0]; · iexact H0
    isplitl [H1]; · iexact H1
    isplitl [H2]; · iexact H2
    isplitl [H3]; · iexact H3
    isplitl [H4]; · iexact H4
    isplitl [H5]; · iexact H5
    isplitl [HS]; · iexact HS
    iintro ⟨H0, H1, H2, H3, H4, H5, HS⟩
    isplitl [HS HR Hg]
    · isplitl [HS HR]
      · isplitl [HS]; · iexact HS
        iexact HR
      iexact Hg
    isplitl [Ho]; · iexact Ho
    isplitl [H0]; · iexact H0
    isplitl [H1]; · iexact H1
    isplitl [H2]; · iexact H2
    isplitl [H3]; · iexact H3
    isplitl [H4]; · iexact H4
    iexists d5; iexact H5
  · have hF : ¬condFirst (grid1.coords t) := fun h => h0 ((hFirst t).mp h)
    rw [Phi1_pos V c t.val h0]
    by_cases h19 : t.val = 19
    · have hL : condLast (grid1.coords t) := (hLast t).mpr h19
      rw [show (dat1 V c).leavesExact 5 t = owns (c : Thread nD τ) (st1_5 t) fullShare ((dat1 V c).after 5 t) from by
        unfold Dat.leavesExact; rw [live1_5 t hL], after1_5, acc1_succ V c t]
      iintro ⟨⟨⟨HS, HR⟩, Hg⟩, Ho, ⟨%d0, H0⟩, ⟨%d1, H1⟩, ⟨%d2, H2⟩, ⟨%d3, H3⟩, ⟨%d4, H4⟩, ⟨%d5, H5⟩⟩
      iapply (sound_last c Set.univ (grid1.coords t) _ _ _ _ _ _ _ _ _ _ _ _ _ _ hF hL
        (iblk1 V c 0 t) (iblk1 V c 1 t) (iblk1 V c 2 t) (iblk1 V c 3 t) (iblk1 V c 4 t) (acc1 V c t.val) _)
      isplitl [H0]; · iexact H0
      isplitl [H1]; · iexact H1
      isplitl [H2]; · iexact H2
      isplitl [H3]; · iexact H3
      isplitl [H4]; · iexact H4
      isplitl [H5]; · iexists _; iexact H5
      isplitl [HS]; · iexact HS
      iintro ⟨H0, H1, H2, H3, H4, H5, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      isplitl [H4]; · iexact H4
      iexact H5
    · have hL : ¬condLast (grid1.coords t) := fun h => h19 ((hLast t).mp h)
      rw [Dat.leavesExact_idle (dat1 V c) 5 t (idle1_5 t hL) (noFlush1_5 t hL)]
      iintro ⟨⟨⟨HS, HR⟩, Hg⟩, Ho, ⟨%d0, H0⟩, ⟨%d1, H1⟩, ⟨%d2, H2⟩, ⟨%d3, H3⟩, ⟨%d4, H4⟩, ⟨%d5, H5⟩⟩
      iapply (sound_mid c Set.univ (grid1.coords t) _ _ _ _ _ _ _ _ _ _ _ _ _ _ hF hL
        (iblk1 V c 0 t) (iblk1 V c 1 t) (iblk1 V c 2 t) (iblk1 V c 3 t) (iblk1 V c 4 t) ((dat1 V c).before 5 t d5) (acc1 V c t.val) _)
      isplitl [H0]; · iexact H0
      isplitl [H1]; · iexact H1
      isplitl [H2]; · iexact H2
      isplitl [H3]; · iexact H3
      isplitl [H4]; · iexact H4
      isplitl [H5]; · iexact H5
      isplitl [HS]; · iexact HS
      iintro ⟨H0, H1, H2, H3, H4, H5, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      isplitl [H4]; · iexact H4
      iexists d5; iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- Before the first point the invariant is the class's; -/
theorem hin1 (c : Dev nD) : Pipeline.ΦA spec1 c ⊢ (dat1 V c).Φ 0 := by
  rw [show (dat1 V c).Φ 0 = Pipeline.ΦA spec1 c from rfl]

/-- after the last point it gives the class's back, the running total's contents forgotten. -/
theorem hout1 (c : Dev nD) : (dat1 V c).Φ (Fin.last cfg1.N) ⊢ Pipeline.ΦA spec1 c := by
  rw [show (dat1 V c).Φ (Fin.last cfg1.N) = Phi1 V c (Fin.last cfg1.N).val from rfl,
    Phi1_pos V c _ (by rw [Fin.val_last]; have : cfg1.N = 20 := N_1; omega), PhiA1_eq]
  iintro ⟨⟨HS, HR⟩, Hg⟩
  isplitl [HS HR]
  · isplitl [HS]; · iexists _; iexact HS
    iexact HR
  iexact Hg

end Cert.KernelIdeal.Pool

end
-- ==== Proof.KI.Frame.lean ====
/-
  The program's run: host operations, the first dense layer's region, host operations, the second region.
  Between two items every unscoped buffer is held at named contents: the launch memory, then what each stretch of host
  operations computes, then, after a region, the region's result array at what its write-backs leave. The two regions enter
  the run as segments over those thread states; the run ends with the result array at what the second region leaves and
  every argument array as launched.
-/
import proofs.«102334_j81604378624770_1_alg».proof.Proof.KI.RunCond
import proofs.«102334_j81604378624770_1_alg».proof.Proof.KI.Lin
import proofs.«102334_j81604378624770_1_alg».proof.Proof.KI.Pool
import Idealize.ShloMosaic.Lib.Pipeline.FrameSuffix
import Idealize.ShloMosaic.Lib.Pipeline.RegionsLoop

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- The buffers' contents when the first region is entered, read at the core's references. -/
abbrev E1 : (c : Dev nD) → (b : Ref sig .tc) → Buf (Elt F) ((c : Thread nD τ).loc b) := fun c b => Gen.V1 m c b

/-- At the first region's exit: its arrays at what the pipeline leaves, every other buffer as entered. -/
def X2 (c : Dev nD) : Valuation τ sig (Elt F) :=
  Pipeline.withArrays spec0 c (Gen.V1 m c) fun w => (Lin.dat0 (E1 m) c).arrAt w cfg0.N

/-- What the first region leaves, as the unknowns the generated valuations are written over. -/
def outsA : Gen.Outs (F := F) := fun _ r c => X2 m c r

/-- The buffers' contents when the second region is entered. -/
abbrev E3 : (c : Dev nD) → (b : Ref sig .tc) → Buf (Elt F) ((c : Thread nD τ).loc b) := fun c b => Gen.V3 m (outsA m) c b

/-- At the second region's exit. -/
def X4 (c : Dev nD) : Valuation τ sig (Elt F) :=
  Pipeline.withArrays spec1 c (Gen.V3 m (outsA m) c) fun w => (Pool.dat1 (E3 m) c).arrAt w cfg1.N

/-- What each region leaves: the first region's result array after item 1, the second's after item 3. -/
def outs : Gen.Outs (F := F) := fun J r c => if J = 4 then X4 m c r else X2 m c r

theorem V2_outs (c : Dev nD) : Gen.V2 m (outs m) c = Gen.V2 m (outsA m) c := rfl
theorem V3_outs (c : Dev nD) : Gen.V3 m (outs m) c = Gen.V3 m (outsA m) c := rfl

/-- The first region's result array, after it: what its write-backs leave. -/
theorem outs_2_v11 (c : Dev nD) : outs m 2 main_v11 c = (Lin.dat0 (E1 m) c).arrAt 3 cfg0.N := by
  show X2 m c (Proc.devRef .tc (Pipeline.arrRef spec0 3)) = _
  unfold X2; exact Pipeline.withArrays_arr spec0 launch0.win.arr_inj c _ _ 3

/-- The second region's result array, after it. -/
theorem outs_4_v24 (c : Dev nD) : outs m 4 main_v24 c = (Pool.dat1 (E3 m) c).arrAt 5 cfg1.N := by
  show X4 m c (Proc.devRef .tc (Pipeline.arrRef spec1 5)) = _
  unfold X4; exact Pipeline.withArrays_arr spec1 launch1.win.arr_inj c _ _ 5

/-- The buffers' contents after the first region, and after the second, read at the core's references. -/
abbrev E2 : (c : Dev nD) → (b : Ref sig .tc) → Buf (Elt F) ((c : Thread nD τ).loc b) := fun c b => Gen.V2 m (outs m) c b
abbrev E4 : (c : Dev nD) → (b : Ref sig .tc) → Buf (Elt F) ((c : Thread nD τ).loc b) := fun c b => Gen.V4 m (outs m) c b

/-- After the first region each of its arrays holds what the pipeline leaves: an input as entered, the result array the
    write-backs' contents. -/
theorem hF0 (c : Dev nD) (w : Fin cfg0.W) :
    (Lin.dat0 (E1 m) c).arrAt w cfg0.N = Gen.V2 m (outs m) c (Pipeline.arrRef spec0 w) := by
  match w with
  | ⟨0, _⟩ => exact ((Lin.dat0 (E1 m) c).arrAt_in 0 rfl _).trans ((Lin.A_eq0 (E1 m) c 0).trans (Gen.V2_of m (outs m) c main_v9 (by decide)).symm)
  | ⟨1, _⟩ => exact ((Lin.dat0 (E1 m) c).arrAt_in 1 rfl _).trans ((Lin.A_eq0 (E1 m) c 1).trans (Gen.V2_of m (outs m) c main_arg3 (by decide)).symm)
  | ⟨2, _⟩ => exact ((Lin.dat0 (E1 m) c).arrAt_in 2 rfl _).trans ((Lin.A_eq0 (E1 m) c 2).trans (Gen.V2_of m (outs m) c main_v10 (by decide)).symm)
  | ⟨3, _⟩ =>
    show _ = Gen.V2 m (outs m) c main_v11
    rw [Gen.V2, Function.update_self]; exact (outs_2_v11 m c).symm

/-- and every buffer that is none of its arrays holds what it held at entry. -/
theorem hrest0 (c : Dev nD) : ∀ b, b ∉ Finset.univ.image (Pipeline.arrRef spec0) → Gen.V2 m (outs m) c b = E1 m c b :=
  fun b hb => Gen.V2_of m (outs m) c b (by
    intro h; rw [List.mem_singleton] at h; subst h
    exact hb (Finset.mem_image.mpr ⟨3, Finset.mem_univ _, rfl⟩))

theorem hF1 (c : Dev nD) (w : Fin cfg1.W) :
    (Pool.dat1 (E3 m) c).arrAt w cfg1.N = Gen.V4 m (outs m) c (Pipeline.arrRef spec1 w) := by
  match w with
  | ⟨0, _⟩ => exact ((Pool.dat1 (E3 m) c).arrAt_in 0 rfl _).trans ((Pool.A_eq1 (E3 m) c 0).trans (Gen.V4_of m (outs m) c main_v21 (by decide)).symm)
  | ⟨1, _⟩ => exact ((Pool.dat1 (E3 m) c).arrAt_in 1 rfl _).trans ((Pool.A_eq1 (E3 m) c 1).trans (Gen.V4_of m (outs m) c main_arg5 (by decide)).symm)
  | ⟨2, _⟩ => exact ((Pool.dat1 (E3 m) c).arrAt_in 2 rfl _).trans ((Pool.A_eq1 (E3 m) c 2).trans (Gen.V4_of m (outs m) c main_v22 (by decide)).symm)
  | ⟨3, _⟩ => exact ((Pool.dat1 (E3 m) c).arrAt_in 3 rfl _).trans ((Pool.A_eq1 (E3 m) c 3).trans (Gen.V4_of m (outs m) c main_arg7 (by decide)).symm)
  | ⟨4, _⟩ => exact ((Pool.dat1 (E3 m) c).arrAt_in 4 rfl _).trans ((Pool.A_eq1 (E3 m) c 4).trans (Gen.V4_of m (outs m) c main_v23 (by decide)).symm)
  | ⟨5, _⟩ =>
    show _ = Gen.V4 m (outs m) c main_v24
    rw [Gen.V4, Function.update_self]; exact (outs_4_v24 m c).symm

theorem hrest1 (c : Dev nD) : ∀ b, b ∉ Finset.univ.image (Pipeline.arrRef spec1) → Gen.V4 m (outs m) c b = E3 m c b :=
  fun b hb => Gen.V4_of m (outs m) c b (by
    intro h; rw [List.mem_singleton] at h; subst h
    exact hb (Finset.mem_image.mpr ⟨5, Finset.mem_univ _, rfl⟩))

/-- Every pipeline's proof data, each at its region's entry contents. -/
def pdats : (p : Fin 2) → (c : Dev nD) → Dat τ (Elt F) Unit ℕ (UR sig nD τ) ℕ (cfgs p) c
  | ⟨0, _⟩ => fun c => Lin.dat0 (E1 m) c
  | ⟨1, _⟩ => fun c => Pool.dat1 (E3 m) c

/-- No core owes another anything: no level is assigned. -/
abbrev L0 : GSem nD τ sig → Finset Unit := fun _ => ∅
abbrev lv0 : GSem nD τ sig → Unit → ℕ := fun _ _ => 0

/-- What rides beside the buffers through every item: the generator register at some state, and the core owing nothing. -/
abbrev Rst (c : Dev nD) : sProp 𝕄 := iprop((∃ r, prngReg c r) ∗ ∃ W, owes (c : Thread nD τ) (0 : CellTallies nD τ sig Unit) W)

set_option backward.isDefEq.respectTransparency.types false in
/-- Region 0 over the thread states: entered with every unscoped buffer at the entry contents, left with the region's arrays
    at what the write-backs leave and every other buffer as entered; the generator register goes into the invariant and comes
    back; nothing is owed; the kernel has no semaphore of its own. -/
def reg0 : Pipeline.RegionSeg (pcfgs (F := F)) Gen.adm (pdats m) () defs₀ Variants.none L0 lv0 0 where
  win := launch0.win.to₀
  block_pos := launch0.block_pos
  stage_whole := launch0.stage_whole
  K := PEmpty
  osem k := k.elim
  ho := Pipeline.OwnSemFacts.none _
  hbody c := (Lin.body_obligation0 (E1 m) c).loose
  hwaits := Pipeline.hwaits_of_owed_zero _ _ _ _ L0 lv0 0 fun _ _ => rfl
  pre c := iprop(StableHlo.held (c : Thread nD τ) (Pipeline.ucRefs τ sig) (Gen.V1 m c) ∗ Rst (F := F) c)
  post c := iprop(StableHlo.held (c : Thread nD τ) (Pipeline.ucRefs τ sig) (Gen.V2 m (outs m) c) ∗ Rst (F := F) c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    rw [show (pdats m 0 c).Φ (Fin.last _) = Pipeline.ΦA spec0 c from rfl]
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (E1 m c) (E2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread states: entered with every unscoped buffer at the entry contents, left with the region's arrays
    at what the write-backs leave and every other buffer as entered; the generator register goes into the invariant and comes
    back; nothing is owed; the kernel has no semaphore of its own. -/
def reg1 : Pipeline.RegionSeg (pcfgs (F := F)) Gen.adm (pdats m) () defs₀ Variants.none L0 lv0 1 where
  win := launch1.win.to₀
  block_pos := launch1.block_pos
  stage_whole := launch1.stage_whole
  K := PEmpty
  osem k := k.elim
  ho := Pipeline.OwnSemFacts.none _
  hbody c := (Pool.body_obligation1 (E3 m) c).loose
  hwaits := Pipeline.hwaits_of_owed_zero _ _ _ _ L0 lv0 1 fun _ _ => rfl
  pre c := iprop(StableHlo.held (c : Thread nD τ) (Pipeline.ucRefs τ sig) (Gen.V3 m (outsA m) c) ∗ Rst (F := F) c)
  post c := iprop(StableHlo.held (c : Thread nD τ) (Pipeline.ucRefs τ sig) (Gen.V4 m (outs m) c) ∗ Rst (F := F) c)
  X c := iprop(∃ r, prngReg c r)
  Y c := iprop(∃ r, prngReg c r)
  Z c := Pipeline.unscopedRest (Ix := Unit) (Name := ℕ) (U := UR sig nD τ) (Lvl := ℕ) spec1 c (E3 m c)
  hentry c := by
    rw [Pipeline.ownSems0_none]
    have hsplit := Pipeline.arrays_of_unscopedBufs (p := 1) (pcfgs (F := F)) Gen.adm (pdats m) launch1.win launch1.arr_whole c
      ((pdats m 1 c).share_full fun _ => rfl) (E3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (show (pdats m 1 c).Φ (Fin.last _) ⊢ Pipeline.ΦA spec1 c from Pool.hout1 (E3 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) Gen.adm (Ix := Unit) (Name := ℕ) (U := UR sig nD τ) (Lvl := ℕ)
      launch1.win launch1.arr_whole c (pdats m) ((pdats m 1 c).share_full fun _ => rfl)
      (E3 m c) (E4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- THE RUN. From any memory with zero counters every weakly fair execution of the program terminates, nothing faulting; the
    result array ends at what the second region's write-back leaves and every argument array as launched. -/
theorem run (ρ : Dev nD → PrngReg) :
    θ_run defs (onTc (τ := τ) (main (F := F))) ⟨m, fun _ => 0, ρ⟩ (fun r => ∀ c : Dev nD,
      r.2.mem ((c.tc : Thread nD τ).loc main_v24) = (Pool.dat1 (E3 m) c).arrAt 5 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) := by
  have h := GenP.run_cond (F := F) m (emb₁ : Emb (UR sig nD τ) 𝕄) () Variants.none L0 lv0 (fun _ _ => rfl) ρ (outs m) (pdats m)
    (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => Rst (F := F) c)
    (hE0 := by
      iintro ⟨H, -⟩
      imodintro
      iapply (show (bigSep Finset.univ fun c : Dev nD => (iprop(unscopedSems0 c ∗ owes (c : Thread nD τ) ((0 : Dev nD → CellTallies nD τ sig Unit) c) ∅
            ∗ Pipeline.launchCred (0 : Dev nD → CellTallies nD τ sig Unit) c ∗ prngReg c (ρ c) ∗ iprop(emp)) : sProp 𝕄))
          ⊢ bigSep Finset.univ fun c : Dev nD => Rst (F := F) c from bigSep_mono fun c _ => (show (iprop(unscopedSems0 c ∗ owes (c : Thread nD τ) ((0 : Dev nD → CellTallies nD τ sig Unit) c) ∅
            ∗ Pipeline.launchCred (0 : Dev nD → CellTallies nD τ sig Unit) c ∗ prngReg c (ρ c) ∗ iprop(emp)) : sProp 𝕄) ⊢ Rst (F := F) c from by
          iintro ⟨-, HO, -, Hp, -⟩
          isplitl [Hp]; · iexists _; iexact Hp
          iexists ∅; iexact HO))
      iexact H)
    (hE2 := fun c => by iintro ⟨-, H⟩; iexact H)
    (reg0 m) (fun _ => .rfl) (fun _ => .rfl)
    (reg1 m) (fun c => Entails.of_eq (by rw [V3_outs m c]; rfl)) (fun _ => .rfl)
  exact (θ_run defs _ _).mono (fun r hr c => ⟨(hr c).1.trans (outs_4_v24 m c), (hr c).2⟩) h

end Cert.KernelIdeal.Frame

end
-- ==== Proof.KI.HostSide.lean ====
/-
  What the host operations put in the regions' input arrays, as functions of the launch memory.
  Before the first region: the aggregated features (the gather of feature rows along the wrapped source indices, summed
  into the destination rows from zero) and the first bias as a one-row array. Between the regions: the same aggregation
  of the first region's result, and the other two biases as one-row arrays. The weights are the argument arrays
  themselves. The aggregation is kept as ONE function of the node array, never opened.
-/
import proofs.«102334_j81604378624770_1_alg».proof.Proof.KI.Frame
import Idealize.ShloMosaic.Lib.StableHlo.Run

set_option maxRecDepth 16384

noncomputable section

namespace Cert.KernelIdeal.HostSide

open Cert.KernelIdeal Cert.KernelIdeal.Gen
open Idealize.ShloMosaic Idealize.ShloMosaic.TcCoe Idealize.SL.Sem Idealize.ShloMosaic.StableHlo

variable {F : FTy → Type} [FloatOps F]

/-- The aggregation: rows gathered along the (wrapped) source indices, then summed into the destination rows from zero. -/
def aggK (src dst : (⟨S1600000, .i32⟩ : BufTy).Contents (Elt F)) (X : (⟨S100000x128, .f32⟩ : BufTy).Contents (Elt F)) :
    (⟨S100000x128, .f32⟩ : BufTy).Contents (Elt F) :=
  Host.scatterAdd (F := F) scatter_S100000x128_S1600000x1_S1600000x128_1_0_0_1
    (broadcastInDim S100000x128 ![] bcast_S_S100000x128 (constant (F := F) S_ .f32 0x00000000#32))
    (broadcastInDim S1600000x1 ![0] bcast_S1600000_S1600000x1_0 dst)
    (Host.gather gather_S100000x128_S1600000x1_S1600000x128_1_0_n_n_0_1_1128 X
      (broadcastInDim S1600000x1 ![0] bcast_S1600000_S1600000x1_0
        (select (cmpi .slt src (broadcastInDim S1600000 ![] bcast_S_S1600000 (constantI S_ 32 0#32)))
          (addi src (broadcastInDim S1600000 ![] bcast_S_S1600000 (constantI S_ 32 100000#32))) src)))

variable (m : (ℓ : Loc nD τ sig) → Buf (Elt F) ℓ)

/-! ## Before the first region -/

theorem E1_v9 (c : Dev nD) :
    Frame.E1 m c main_v9 = aggK (m ((c.tc : Thread nD τ).loc main_arg1)) (m ((c.tc : Thread nD τ).loc main_arg2)) (m ((c.tc : Thread nD τ).loc main_arg0)) := by
  show StableHlo.after hostOps0 (fun b => m (c, b)) (Proc.devRef .tc main_v9) = _
  after_results; rfl

theorem E1_arg3 (c : Dev nD) : Frame.E1 m c main_arg3 = m ((c.tc : Thread nD τ).loc main_arg3) :=
  Gen.V1_of m c main_arg3 (by decide)

theorem E1_v10 (c : Dev nD) :
    Frame.E1 m c main_v10 = shapeCast S1x128 (m ((c.tc : Thread nD τ).loc main_arg4)) shapeCasts_S128_S1x128 := by
  show StableHlo.after hostOps0 (fun b => m (c, b)) (Proc.devRef .tc main_v10) = _
  after_results; rfl

/-! ## Between the regions -/

theorem V2_arg (c : Dev nD) (r : Ref sig .tc) (h2 : r ∉ ([main_v11] : List (Ref sig .tc))) (h1 : r ∉ hostOps0_W) :
    Gen.V2 m (Frame.outsA m) c r = m ((c.tc : Thread nD τ).loc r) :=
  (Gen.V2_of m (Frame.outsA m) c r h2).trans (Gen.V1_of m c r h1)

theorem V2_v11 (c : Dev nD) : Gen.V2 m (Frame.outsA m) c main_v11 = (Lin.dat0 (Frame.E1 m) c).arrAt 3 cfg0.N := by
  rw [Gen.V2, Function.update_self]; exact Frame.outs_2_v11 m c

theorem E3_v21 (c : Dev nD) :
    Frame.E3 m c main_v21 = aggK (m ((c.tc : Thread nD τ).loc main_arg1)) (m ((c.tc : Thread nD τ).loc main_arg2))
      ((Lin.dat0 (Frame.E1 m) c).arrAt 3 cfg0.N) := by
  have h : Frame.E3 m c main_v21 = aggK (Gen.V2 m (Frame.outsA m) c main_arg1) (Gen.V2 m (Frame.outsA m) c main_arg2) (Gen.V2 m (Frame.outsA m) c main_v11) := by
    show StableHlo.after hostOps1 (Gen.V2 m (Frame.outsA m) c) (Proc.devRef .tc main_v21) = _
    after_results; rfl
  rw [h, V2_arg m c main_arg1 (by decide) (by decide), V2_arg m c main_arg2 (by decide) (by decide), V2_v11]

theorem E3_arg5 (c : Dev nD) : Frame.E3 m c main_arg5 = m ((c.tc : Thread nD τ).loc main_arg5) :=
  (Gen.V3_of m (Frame.outsA m) c main_arg5 (by decide)).trans (V2_arg m c main_arg5 (by decide) (by decide))

theorem E3_arg7 (c : Dev nD) : Frame.E3 m c main_arg7 = m ((c.tc : Thread nD τ).loc main_arg7) :=
  (Gen.V3_of m (Frame.outsA m) c main_arg7 (by decide)).trans (V2_arg m c main_arg7 (by decide) (by decide))

theorem E3_v22 (c : Dev nD) :
    Frame.E3 m c main_v22 = shapeCast S1x128 (m ((c.tc : Thread nD τ).loc main_arg6)) shapeCasts_S128_S1x128 := by
  have h : Frame.E3 m c main_v22 = shapeCast S1x128 (Gen.V2 m (Frame.outsA m) c main_arg6) shapeCasts_S128_S1x128 := by
    show StableHlo.after hostOps1 (Gen.V2 m (Frame.outsA m) c) (Proc.devRef .tc main_v22) = _
    after_results; rfl
  rw [h, V2_arg m c main_arg6 (by decide) (by decide)]

theorem E3_v23 (c : Dev nD) :
    Frame.E3 m c main_v23 = shapeCast S1x256 (m ((c.tc : Thread nD τ).loc main_arg8)) shapeCasts_S256_S1x256 := by
  have h : Frame.E3 m c main_v23 = shapeCast S1x256 (Gen.V2 m (Frame.outsA m) c main_arg8) shapeCasts_S256_S1x256 := by
    show StableHlo.after hostOps1 (Gen.V2 m (Frame.outsA m) c) (Proc.devRef .tc main_v23) = _
    after_results; rfl
  rw [h, V2_arg m c main_arg8 (by decide) (by decide)]

end Cert.KernelIdeal.HostSide

end
-- ==== Proof.LibPlainDot.lean ====
/-
  A plain two-dimensional contraction (rows x inner times inner x columns, no batch axis) read at an index.
  At the extended reals the matrix unit's product into a zero accumulator and the host's dot product are both
  the sum, over the inner index k, of the left operand's entry (row, k) times the right operand's entry (k, column).
-/
import Idealize.ShloMosaic.Lib.ValueIdx
import Idealize.ShloMosaic.PureOps.Ideal.Laws
import Idealize.ShloMosaic.Lib.ValueLayout

noncomputable section

namespace Cert.PlainDot

open Idealize.ShloMosaic Idealize.ShloMosaic.ValueIdx

variable {M K N : Nat}

/-- The left operand is read on its row axis at the output's row. -/
theorem lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand is read on its inner axis at the contraction index. -/
theorem lhs_inner (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q

/-- The right operand is read on its inner axis at the contraction index. -/
theorem rhs_inner (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q

/-- The right operand is read on its column axis at the output's column. -/
theorem rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The contraction's sum re-indexed by the inner coordinate. -/
theorem sum_contr (A : (⟨2, ![M, K]⟩ : Shape).Idx → EReal) (B : (⟨2, ![K, N]⟩ : Shape).Idx → EReal)
    (j : (⟨2, ![M, N]⟩ : Shape).Idx) :
    (∑ q : (DotDims.plain M K N).contr.Idx, A ((DotDims.plain M K N).lhsIdx j q) * B ((DotDims.plain M K N).rhsIdx j q))
      = ∑ k : Fin K, A (ix2 (j 0) k) * B (ix2 k (j 1)) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => exact lhs_row _ _
      | ⟨1, _⟩ => exact (lhs_inner _ _).trans hk)
  have er : (DotDims.plain M K N).rhsIdx j ((contrEquiv1 (DotDims.plain M K N) K rfl rfl).symm k) = ix2 k (j 1) :=
    funext fun a => Fin.ext (by
      match a with
      | ⟨0, _⟩ => exact (rhs_inner _ _).trans hk
      | ⟨1, _⟩ => exact rhs_col _ _)
  exact congrArg₂ (· * ·) (congrArg A el) (congrArg B er)

/-- The matrix unit's product into the zero accumulator, at an output index: the plain sum of products. -/
theorem matmul_zero_apply {φ₁ φ₂ : FTy} (prec : Option ContractPrecision)
    (A : FVec Ideal (⟨2, ![M, K]⟩ : Shape) φ₁) (B : FVec Ideal (⟨2, ![K, N]⟩ : Shape) φ₂) (j : (⟨2, ![M, N]⟩ : Shape).Idx) :
    FloatOps.matmul (DotDims.plain M K N) prec A B (constant (⟨2, ![M, N]⟩ : Shape) .f32 0x00000000#32) j
      = ∑ k : Fin K, A (ix2 (j 0) k) * B (ix2 k (j 1)) :=
  (Ideal.matmul_constant_zero_apply (DotDims.plain M K N) prec A B j).trans (sum_contr A B j)

/-- The host's dot product at an output index: the same sum. -/
theorem dotGeneral_apply {φ₁ φ₂ : FTy} (prec : Option ContractPrecision) (sched : HostSchedule)
    (A : FVec Ideal (⟨2, ![M, K]⟩ : Shape) φ₁) (B : FVec Ideal (⟨2, ![K, N]⟩ : Shape) φ₂) (j : (⟨2, ![M, N]⟩ : Shape).Idx) :
    FloatOps.dotGeneral (DotDims.plain M K N) prec sched A B j
      = ∑ k : Fin K, A (ix2 (j 0) k) * B (ix2 k (j 1)) :=
  (Ideal.dotGeneral_apply (DotDims.plain M K N) prec sched A B j).trans (sum_contr A B j)

/-! ## A matrix product with a row added to every row -/

/-- The matrix product of `A` and `B` with the one-row array `b` added to each of its rows: the entry at
    (r, c) is `∑ k, A (r, k) * B (k, c) + b (0, c)`. -/
def affine (A : (⟨2, ![M, K]⟩ : Shape).Idx → EReal) (B : (⟨2, ![K, N]⟩ : Shape).Idx → EReal)
    (b : (⟨2, ![1, N]⟩ : Shape).Idx → EReal) : (⟨2, ![M, N]⟩ : Shape).Idx → EReal :=
  fun j => (∑ k : Fin K, A (ix2 (j 0) k) * B (ix2 k (j 1))) + b (ix2 (0 : Fin 1) (j 1))

/-- The matrix unit's product into a zero accumulator plus a one-row array broadcast over the rows is `affine`. -/
theorem matmul_add_row_eq {φ₁ φ₂ : FTy} (prec : Option ContractPrecision)
    (A : FVec Ideal (⟨2, ![M, K]⟩ : Shape) φ₁) (B : FVec Ideal (⟨2, ![K, N]⟩ : Shape) φ₂)
    (b : FVec Ideal (⟨2, ![1, N]⟩ : Shape) .f32) (h : (⟨2, ![1, N]⟩ : Shape).Broadcasts ⟨2, ![M, N]⟩) :
    addf (matmul (DotDims.plain M K N) prec A B (constant (⟨2, ![M, N]⟩ : Shape) .f32 0x00000000#32))
        (broadcastTo (⟨2, ![M, N]⟩ : Shape) b h) = affine A B b := by
  funext j
  obtain ⟨p, q, rfl⟩ : ∃ (p : Fin M) (q : Fin N), j = ix2 p q := ⟨j 0, j 1, eq_ix2 j⟩
  show FloatOps.matmul (DotDims.plain M K N) prec A B (constant (⟨2, ![M, N]⟩ : Shape) .f32 0x00000000#32) (ix2 p q)
      + broadcastTo (⟨2, ![M, N]⟩ : Shape) b h (ix2 p q) = _
  rw [matmul_zero_apply, broadcastTo_1b_ab_apply]
  rfl

/-- `affine` followed by the rectifier: each entry's maximum with the value of the zero word. -/
def affineRelu (A : (⟨2, ![M, K]⟩ : Shape).Idx → EReal) (B : (⟨2, ![K, N]⟩ : Shape).Idx → EReal)
    (b : (⟨2, ![1, N]⟩ : Shape).Idx → EReal) : (⟨2, ![M, N]⟩ : Shape).Idx → EReal :=
  fun j => max (affine A B b j) (Ideal.ofBits .f32 0x00000000#32)

/-- The same product and row, then the entrywise maximum with a splat of the zero word, is `affineRelu`. -/
theorem matmul_add_row_max_eq {φ₁ φ₂ : FTy} (prec : Option ContractPrecision)
    (A : FVec Ideal (⟨2, ![M, K]⟩ : Shape) φ₁) (B : FVec Ideal (⟨2, ![K, N]⟩ : Shape) φ₂)
    (b : FVec Ideal (⟨2, ![1, N]⟩ : Shape) .f32) (h : (⟨2, ![1, N]⟩ : Shape).Broadcasts ⟨2, ![M, N]⟩) :
    maximumf (addf (matmul (DotDims.plain M K N) prec A B (constant (⟨2, ![M, N]⟩ : Shape) .f32 0x00000000#32))
        (broadcastTo (⟨2, ![M, N]⟩ : Shape) b h))
      (broadcast (⟨2, ![M, N]⟩ : Shape) (Scalar.ofBits (F := Ideal) .f32 0x00000000#32)) = affineRelu A B b := by
  rw [matmul_add_row_eq]
  rfl

end Cert.PlainDot

end
-- ==== Proof.Spec.lean ====
/-
  The function both programs compute, over the extended reals.
  A node array `X` (100000 rows of 128) goes through an aggregation `agg` (the gather of rows along edge sources
  followed by the sum into edge destinations: the same host operations in both programs, kept abstract here), then an
  affine map with weight `W1` and bias row `b1` and the rectifier; the result goes through the same aggregation, a
  second affine map and rectifier; the columns are summed over all nodes; a last affine map and rectifier give the
  one row of 256 results.
-/
import Idealize.ShloMosaic.Lib.ValueIdx
import Idealize.ShloMosaic.PureOps.Ideal.Laws
import proofs.«102334_j81604378624770_1_alg».proof.Proof.LibPlainDot

noncomputable section

namespace Cert.Spec

open Idealize.ShloMosaic Idealize.ShloMosaic.ValueIdx Cert.PlainDot

/-- The shapes: node arrays, the square weights, a bias row, the last weight, the result row, a bias vector. -/
abbrev SN : Shape := ⟨2, ![100000, 128]⟩
abbrev SW : Shape := ⟨2, ![128, 128]⟩
abbrev SR : Shape := ⟨2, ![1, 128]⟩
abbrev SW3 : Shape := ⟨2, ![128, 256]⟩
abbrev SO : Shape := ⟨2, ![1, 256]⟩
abbrev SV : Shape := ⟨1, ![128]⟩
abbrev SV3 : Shape := ⟨1, ![256]⟩
abbrev SBlk : Shape := ⟨2, ![5000, 128]⟩

/-- A bias vector as a one-row array. -/
def row128 (b : SV.Idx → EReal) : SR.Idx → EReal := fun j => b (ix1 (j 1))
def row256 (b : SV3.Idx → EReal) : SO.Idx → EReal := fun j => b (ix1 (j 1))

/-- The columns of a node array summed over all nodes, as a one-row array. -/
def colSum (X : SN.Idx → EReal) : SR.Idx → EReal := fun j => ∑ r : Fin 100000, X (ix2 r (j 1))

/-- One dense layer on node arrays: affine map, then rectifier. -/
def layer (X : SN.Idx → EReal) (W : SW.Idx → EReal) (b : SR.Idx → EReal) : SN.Idx → EReal :=
  affineRelu (M := 100000) (K := 128) (N := 128) X W b

/-- The last layer, on the pooled row. -/
def head (p : SR.Idx → EReal) (W : SW3.Idx → EReal) (b : SO.Idx → EReal) : SO.Idx → EReal :=
  affineRelu (M := 1) (K := 128) (N := 256) p W b

/-- The whole computation, the aggregation abstract. -/
def result (agg : (SN.Idx → EReal) → (SN.Idx → EReal)) (x : SN.Idx → EReal)
    (W1 : SW.Idx → EReal) (b1 : SR.Idx → EReal) (W2 : SW.Idx → EReal) (b2 : SR.Idx → EReal)
    (W3 : SW3.Idx → EReal) (b3 : SO.Idx → EReal) : SO.Idx → EReal :=
  head (colSum (layer (agg (layer (agg x) W1 b1)) W2 b2)) W3 b3

/-- A running total started at zero and increased by `s t` at step `t` is, after `n` steps, the sum of the first `n`. -/
theorem running_total (s : ℕ → EReal) (a : ℕ → EReal) (h0 : a 0 = 0) (hs : ∀ n, a (n + 1) = a n + s n) (n : ℕ) :
    a n = ∑ t ∈ Finset.range n, s t := by
  induction n with
  | zero => simpa using h0
  | succ n ih => rw [hs, ih, Finset.sum_range_succ]

end Cert.Spec

end
-- ==== Proof.KI.LinValue.lean ====
/-
  The first dense layer's region, read as a value over the extended reals.
  At grid point t the body sees rows 5000 t … 5000 t + 4999 of the node array X (100000 x 128), the whole weight
  W (128 x 128) and the one-row bias b (1 x 128), and stores max (block · W + b, 0) into the same rows of the output.
  Rounding the operands to the narrower float format is the identity on the extended reals, the reshapes are between
  equal shapes, and the matrix unit's product into a zero accumulator is the plain sum over the inner index; so the
  stored block is the rectified affine image of the three blocks. Block t of the output reads each operand exactly
  where the layer's formula reads it (row 5000 t + p of X, all of W, all of b), so what point t writes back is block t
  of the one whole-array function (r, j) ↦ max (∑ k, X (r, k) * W (k, j) + b (0, j), 0). Every point writes back, and
  row r lies in the block of point r / 5000, so the twenty blocks cover the array and it ends holding that function.
-/
import proofs.«102334_j81604378624770_1_alg».proof.Proof.KI.Lin
import proofs.«102334_j81604378624770_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.LinValue

open Cert.KernelIdeal Cert.KernelIdeal.Gen Cert.KernelIdeal.Lin
open Idealize.ShloMosaic Idealize.ShloMosaic.TcCoe Idealize.ShloMosaic.ValueIdx
open Idealize.SL.Sem
open Idealize.ShloMosaic.Pipeline (Dat Cfg Window)

/-- The whole-buffer rectangles start at the origin. -/
theorem zero_offsets : (![0, 0] : Fin 2 → Nat) = fun _ => 0 := funext fun a => by fin_cases a <;> rfl

/-- The body's contraction is the plain one: rows x inner times inner x columns, no batch axis. -/
theorem dot_is_plain : dot_S5000x128_S128x128_S5000x128_1_0_0_1_n_n = DotDims.plain 5000 128 128 := rfl

/-- What the body leaves in the output block is the rectified affine image of the three input blocks: the one store
    covers the block, the casts between equal shapes and the narrowing of the operands change nothing, and the product
    into the zero accumulator plus the broadcast bias row, then the maximum with zero, is `affineRelu`. -/
theorem lin0_eq (x0 : Vec Ideal S5000x128 .f32) (x1 : Vec Ideal S128x128 .f32) (x2 : Vec Ideal S1x128 .f32) :
    lin0 x0 x1 x2 = Cert.PlainDot.affineRelu (M := 5000) (K := 128) (N := 128) x0 x1 x2 := by
  unfold lin0
  rw [View.canon_unit_zero zero_offsets]
  simp only [View.ld_unit_zero (S := S5000x128) zero_offsets, View.ld_unit_zero (S := S128x128) zero_offsets,
    View.ld_unit_zero (S := S1x128) zero_offsets]
  unfold k0_pay1
  dsimp only
  rw [shapeCast_self, shapeCast_self, dot_is_plain]
  exact Cert.PlainDot.matmul_add_row_max_eq (M := 5000) (K := 128) (N := 128) none
    (truncf .bf16 x0 bitsLt_bf16_f32) (truncf .bf16 x1 bitsLt_bf16_f32) x2 broadcasts_S1x128_S5000x128

open Cert.Spec Cert.PlainDot

/-- One entry of the layer, from blocks: if, along the inner index, the row block agrees with the node array at row
    `i 0`, the weight block with the weight at column `i 1`, and the bias block with the bias at column `i 1`, then the
    rectified affine image of the blocks at `j` is the layer's entry at `i`. -/
theorem layer_entry_of_blocks (X : SN.Idx → EReal) (W : SW.Idx → EReal) (b : SR.Idx → EReal)
    (x0 : SBlk.Idx → EReal) (x1 : SW.Idx → EReal) (x2 : SR.Idx → EReal) (j : SBlk.Idx) (i : SN.Idx)
    (hx0 : ∀ k : Fin 128, x0 (ix2 (j 0) k) = X (ix2 (i 0) k))
    (hx1 : ∀ k : Fin 128, x1 (ix2 k (j 1)) = W (ix2 k (i 1)))
    (hx2 : x2 (ix2 (0 : Fin 1) (j 1)) = b (ix2 (0 : Fin 1) (i 1))) :
    affineRelu (M := 5000) (K := 128) (N := 128) x0 x1 x2 j = layer X W b i := by
  unfold layer affineRelu affine
  rw [Finset.sum_congr rfl (fun k _ => by rw [hx0 k, hx1 k]), hx2]

variable (V : (c : Dev nD) → (b : Ref sig .tc) → Buf (Elt Ideal) ((c : Thread nD τ).loc b))

/-- The index maps over the grid: the row windows (input and output) sit at block (t, 0), the weight and the bias at
    block (0, 0). -/
theorem index_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The row window's block at point `t` is rows `5000 t … 5000 t + 4999` of the node array. -/
theorem rows_block_apply (c : Dev nD) (t : Fin cfg0.N) (x : S5000x128.Idx) (i : S100000x128.Idx)
    (h0 : (i 0).val = 5000 * t.val + (x 0).val) (h1 : (i 1).val = (x 1).val) :
    (iblk0 V c 0 t : Vec Ideal S5000x128 .f32) x = (V c main_v9 : S100000x128.Idx → EReal) i := by
  obtain ⟨e0, e1, -⟩ := index_facts t
  unfold iblk0
  rw [View.read_apply]
  show V c main_v9 _ = V c main_v9 _
  refine congrArg (V c main_v9) ?_
  funext a
  apply Fin.ext
  match a with
  | ⟨0, _⟩ => show win0_0.index t (0 : Fin 2) * 5000 + 1 * (x 0).val = (i 0).val; rw [e0, h0]; omega
  | ⟨1, _⟩ => show win0_0.index t (1 : Fin 2) * 128 + 1 * (x 1).val = (i 1).val; rw [e1, h1]; omega

/-- The weight window's block is the whole weight at every point. -/
theorem weight_block_apply (c : Dev nD) (t : Fin cfg0.N) (x : S128x128.Idx) (i : S128x128.Idx)
    (h0 : (i 0).val = (x 0).val) (h1 : (i 1).val = (x 1).val) :
    (iblk0 V c 1 t : Vec Ideal S128x128 .f32) x = (V c main_arg3 : S128x128.Idx → EReal) i := by
  obtain ⟨-, -, e0, e1, -⟩ := index_facts t
  unfold iblk0
  rw [View.read_apply]
  show V c main_arg3 _ = V c main_arg3 _
  refine congrArg (V c main_arg3) ?_
  funext a
  apply Fin.ext
  match a with
  | ⟨0, _⟩ => show win0_1.index t (0 : Fin 2) * 128 + 1 * (x 0).val = (i 0).val; rw [e0, h0]; omega
  | ⟨1, _⟩ => show win0_1.index t (1 : Fin 2) * 128 + 1 * (x 1).val = (i 1).val; rw [e1, h1]; omega

/-- The bias window's block is the whole bias row at every point. -/
theorem bias_block_apply (c : Dev nD) (t : Fin cfg0.N) (x : S1x128.Idx) (i : S1x128.Idx)
    (h0 : (i 0).val = (x 0).val) (h1 : (i 1).val = (x 1).val) :
    (iblk0 V c 2 t : Vec Ideal S1x128 .f32) x = (V c main_v10 : S1x128.Idx → EReal) i := by
  obtain ⟨-, -, -, -, e0, e1, -⟩ := index_facts t
  unfold iblk0
  rw [View.read_apply]
  show V c main_v10 _ = V c main_v10 _
  refine congrArg (V c main_v10) ?_
  funext a
  apply Fin.ext
  match a with
  | ⟨0, _⟩ => show win0_2.index t (0 : Fin 2) * 1 + 1 * (x 0).val = (i 0).val; rw [e0, h0]; omega
  | ⟨1, _⟩ => show win0_2.index t (1 : Fin 2) * 128 + 1 * (x 1).val = (i 1).val; rw [e1, h1]; omega

/-- What point `t` writes back is block `t` of the layer of the arrays as the region finds them. -/
theorem flushed_eq (c : Dev nD) (t : Fin cfg0.N) :
    (dat0 (F := Ideal) V c).flushed 3 t
      = ((cfg0.win 3).blk t).view.read (Elt Ideal) (Cert.Spec.layer (V c main_v9) (V c main_arg3) (V c main_v10)) := by
  show (cfg0.win 3).cut (grid0.coords t) ((dat0 V c).after 3 t) = _
  rw [after0_3, lin0_eq (iblk0 V c 0 t) (iblk0 V c 1 t) (iblk0 V c 2 t)]
  obtain ⟨-, -, -, -, -, -, e0, e1⟩ := index_facts t
  funext y
  show affineRelu (M := 5000) (K := 128) (N := 128) (iblk0 V c 0 t) (iblk0 V c 1 t) (iblk0 V c 2 t)
        ((cfg0.win 3).xinj (grid0.coords t) y)
      = layer (V c main_v9) (V c main_arg3) (V c main_v10) (((cfg0.win 3).blk t).view.emb y)
  have r0 : ((((cfg0.win 3).blk t).view.emb y) 0).val = 5000 * t.val + (y 0).val := by
    show win0_3.index t (0 : Fin 2) * 5000 + 1 * (y 0).val = _; rw [e0]; omega
  have r1 : ((((cfg0.win 3).blk t).view.emb y) 1).val = (y 1).val := by
    show win0_3.index t (1 : Fin 2) * 128 + 1 * (y 1).val = _; rw [e1]; omega
  refine layer_entry_of_blocks _ _ _ _ _ _ _ _ (fun k => ?_) (fun k => ?_) ?_
  · exact rows_block_apply V c t _ _ r0 rfl
  · exact weight_block_apply V c t _ _ rfl r1
  · exact bias_block_apply V c t _ _ rfl r1

/-- An index of the output array is in point `t`'s block iff each coordinate is in the block's range on its axis. -/
theorem mem_out_block (t : Fin cfg0.N) (i : S100000x128.Idx) :
    i ∈ ((cfg0.win 3).blk t).view.set ↔ ∀ a : Fin 2, win0_3.index t a * S5000x128.size a ≤ (i a).val
      ∧ (i a).val < win0_3.index t a * S5000x128.size a + S5000x128.size a := by
  show i ∈ ((View.whole main_v11).slice (win0_3.rect t)).set ↔ _
  rw [View.set_slice_whole, Rect.mem_set_unit]
  exact Iff.rfl

/-- Every index of the output array is written back by some point: row `r` by point `r / 5000`. -/
theorem covered (i : S100000x128.Idx) :
    ∃ t : Fin cfg0.N, (cfg0.win 3).flush t = true ∧ i ∈ ((cfg0.win 3).blk t).view.set := by
  have hi0 : (i 0).val < 100000 := (i 0).isLt
  have hi1 : (i 1).val < 128 := (i 1).isLt
  have hN : cfg0.N = 20 := N_0
  obtain ⟨t, ht⟩ : ∃ t : Fin cfg0.N, t.val = (i 0).val / 5000 := ⟨⟨(i 0).val / 5000, by rw [hN]; omega⟩, rfl⟩
  obtain ⟨-, -, -, -, -, -, e0, e1⟩ := index_facts t
  refine ⟨t, flush0_3 t, ?_⟩
  rw [mem_out_block]
  intro a
  match a with
  | ⟨0, _⟩ =>
    show win0_3.index t (0 : Fin 2) * 5000 ≤ (i 0).val ∧ (i 0).val < win0_3.index t (0 : Fin 2) * 5000 + 5000
    rw [e0, ht]; omega
  | ⟨1, _⟩ =>
    show win0_3.index t (1 : Fin 2) * 128 ≤ (i 1).val ∧ (i 1).val < win0_3.index t (1 : Fin 2) * 128 + 128
    rw [e1]; omega

/-- After the region the output array holds the layer of the node array, the weight and the bias row as the region
    found them: entry (r, j) is the maximum of `∑ k, X (r, k) * W (k, j) + b (0, j)` and zero. -/
theorem lin_final (c : Dev nD) :
    (dat0 (F := Ideal) V c).arrAt 3 cfg0.N = Cert.Spec.layer (V c main_v9) (V c main_arg3) (V c main_v10) :=
  (dat0 (F := Ideal) V c).arrAt_eq_of_cover 3 (Cert.Spec.layer (V c main_v9) (V c main_arg3) (V c main_v10))
    (fun t _ => flushed_eq V c t) covered

end Cert.KernelIdeal.LinValue

end
-- ==== Proof.KI.PoolSum.lean ====
/-
  The running total of the pooled layer, read as a value over the extended reals.
  The scratch row starts at zero; at point t it gains, per column, the sum over the 5000 rows of the point's block of
  the rectified affine image of the rows. After the 20 points the row holds, per column, the sum over all 100000 rows
  of the rectified affine image of the node array: a sum over a product of index sets re-indexed as one sum, which
  needs only that addition on the extended reals is commutative and associative.
-/
import proofs.«102334_j81604378624770_1_alg».proof.Proof.KI.Pool
import proofs.«102334_j81604378624770_1_alg».proof.Proof.Spec
import Idealize.ShloMosaic.Lib.Pipeline.Value
import Idealize.ShloMosaic.Lib.ValueIdx
import Idealize.ShloMosaic.Lib.ValueLayout
import Idealize.ShloMosaic.PureOps.Ideal.Laws
import Mathlib.Algebra.BigOperators.Fin
import Mathlib.Logic.Equiv.Fin.Basic
import Mathlib.Data.Fintype.BigOperators

set_option maxRecDepth 16384

noncomputable section

namespace Cert.KernelIdeal.PoolSum

open Cert.KernelIdeal Cert.KernelIdeal.Gen Cert.KernelIdeal.Pool
open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-- A sum over 100000 rows, taken block by block: 20 blocks of 5000 rows. -/
theorem sum_blocks (f : Fin 100000 → EReal) :
    ∑ r : Fin 100000, f r
      = ∑ t : Fin 20, ∑ q : Fin 5000, f ⟨5000 * t.val + q.val, by have := t.isLt; have := q.isLt; omega⟩ := by
  rw [← Equiv.sum_comp (finProdFinEquiv (m := 20) (n := 5000)) f, Fintype.sum_prod_type]
  refine Finset.sum_congr rfl fun t _ => Finset.sum_congr rfl fun q _ => ?_
  refine congrArg f (Fin.ext ?_)
  show q.val + 5000 * t.val = 5000 * t.val + q.val
  omega

/-- The zero row is the real zero in every column. -/
theorem accZero_apply (i : S1x128.Idx) : (accZero (F := Ideal)) i = 0 := by
  unfold accZero k1_pay1
  simp only [shapeCast_self]
  show Ideal.ofBits .f32 0x00000000#32 = 0
  exact Ideal.ofBits_zero_f32

/-- The program's contraction record is the plain rows-by-inner times inner-by-columns one. -/
theorem dot_plain : dot_S5000x128_S128x128_S5000x128_1_0_0_1_n_n = DotDims.plain 5000 128 128 := rfl

/-- The rectified affine image of a block of rows, as the body computes it, is the entrywise formula. -/
theorem relu_block (x0 : Vec Ideal S5000x128 .f32) (x1 : Vec Ideal S128x128 .f32) (x2 : Vec Ideal S1x128 .f32) :
    maximumf (addf (matmul dot_S5000x128_S128x128_S5000x128_1_0_0_1_n_n none
          (truncf .bf16 x0 bitsLt_bf16_f32) (truncf .bf16 x1 bitsLt_bf16_f32)
          (constant (F := Ideal) S5000x128 .f32 0x00000000#32))
        (broadcastTo S5000x128 x2 broadcasts_S1x128_S5000x128))
      (broadcast S5000x128 (Scalar.ofBits (F := Ideal) .f32 0x00000000#32))
      = Cert.PlainDot.affineRelu (M := 5000) (K := 128) (N := 128) x0 x1 x2 := by
  rw [dot_plain]
  exact Cert.PlainDot.matmul_add_row_max_eq (M := 5000) (K := 128) (N := 128) none
    (truncf .bf16 x0 bitsLt_bf16_f32) (truncf .bf16 x1 bitsLt_bf16_f32) x2 broadcasts_S1x128_S5000x128

/-- The sum over the rows of a block, column by column. -/
theorem colsum_apply (y : FVec Ideal S5000x128 .f32) (hacc : (0x00000000#32 : BitVec 32) = 0x00000000#32) (j : Fin 128) :
    multiReduction (F := Ideal) .add [0] S128 y 0x00000000#32 reduces_S5000x128_S128 (.inl rfl) hacc (ix1 j)
      = ∑ q : Fin 5000, y (ix2 q j) := by
  refine (Ideal.multiReduction_add_single y 0x00000000#32 reduces_S5000x128_S128 (.inl rfl) hacc (ix1 j)).trans ?_
  refine Finset.sum_congr rfl fun q _ => congrArg y ?_
  funext a
  apply Fin.ext
  match a with
  | ⟨0, _⟩ => rfl
  | ⟨1, _⟩ => rfl

/-- One point's step, column by column: the total gains the column's sum of the rectified affine image of the block. -/
theorem accStep_apply (x0 : Vec Ideal S5000x128 .f32) (x1 : Vec Ideal S128x128 .f32) (x2 : Vec Ideal S1x128 .f32)
    (s : Vec Ideal S1x128 .f32) (j : Fin 128) :
    accStep x0 x1 x2 s (ix2 (0 : Fin 1) j)
      = s (ix2 (0 : Fin 1) j) + ∑ q : Fin 5000, Cert.PlainDot.affineRelu (M := 5000) (K := 128) (N := 128) x0 x1 x2 (ix2 q j) := by
  unfold accStep k1_pay2
  simp only [shapeCast_self]
  rw [addf_apply, shapeCast_a_1a_apply]
  refine congrArg (s (ix2 (0 : Fin 1) j) + ·) ?_
  refine (colsum_apply _ _ j).trans ?_
  rw [relu_block]

variable (V : (c : Dev nD) → (b : Ref sig .tc) → Buf (Elt Ideal) ((c : Thread nD τ).loc b))

/-- The block indices of the three windows the step reads, over the grid: the node array's window moves one block of
    rows per point, the weight's and the bias row's stay at the one block that is the whole array. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0 :=
  (by decide +kernel : ∀ t : Fin grid1.N, _)

theorem blkW (c : Dev nD) (t : Fin cfg1.N) (k : Fin 128) (j : Fin 128) :
    (iblk1 V c 1 t : Vec Ideal S128x128 .f32) (ix2 k j) = (V c main_arg5 : Vec Ideal S128x128 .f32) (ix2 k j) := by
  obtain ⟨-, -, e0, e1, -, -⟩ := idx_facts t
  unfold iblk1
  rw [View.read_apply]
  show V c main_arg5 _ = V c main_arg5 _
  congr 1
  funext a
  apply Fin.ext
  match a with
  | ⟨0, _⟩ => show win1_1.index t (0 : Fin 2) * 128 + 1 * k.val = k.val; rw [e0]; omega
  | ⟨1, _⟩ => show win1_1.index t (1 : Fin 2) * 128 + 1 * j.val = j.val; rw [e1]; omega

theorem blkB (c : Dev nD) (t : Fin cfg1.N) (j : Fin 128) :
    (iblk1 V c 2 t : Vec Ideal S1x128 .f32) (ix2 (0 : Fin 1) j) = (V c main_v22 : Vec Ideal S1x128 .f32) (ix2 (0 : Fin 1) j) := by
  obtain ⟨-, -, -, -, e0, e1⟩ := idx_facts t
  unfold iblk1
  rw [View.read_apply]
  show V c main_v22 _ = V c main_v22 _
  congr 1
  funext a
  apply Fin.ext
  match a with
  | ⟨0, _⟩ => show win1_2.index t (0 : Fin 2) * 1 + 1 * 0 = 0; rw [e0]
  | ⟨1, _⟩ => show win1_2.index t (1 : Fin 2) * 128 + 1 * j.val = j.val; rw [e1]; omega

theorem blkX (c : Dev nD) (t : Fin cfg1.N) (q : Fin 5000) (k : Fin 128) (h : 5000 * t.val + q.val < 100000) :
    (iblk1 V c 0 t : Vec Ideal S5000x128 .f32) (ix2 q k)
      = (V c main_v21 : Vec Ideal S100000x128 .f32) (ix2 (⟨5000 * t.val + q.val, h⟩ : Fin 100000) k) := by
  obtain ⟨e0, e1, -, -, -, -⟩ := idx_facts t
  unfold iblk1
  rw [View.read_apply]
  show V c main_v21 _ = V c main_v21 _
  congr 1
  funext a
  apply Fin.ext
  match a with
  | ⟨0, _⟩ => show win1_0.index t (0 : Fin 2) * 5000 + 1 * q.val = 5000 * t.val + q.val; rw [e0]; omega
  | ⟨1, _⟩ => show win1_0.index t (1 : Fin 2) * 128 + 1 * k.val = k.val; rw [e1]; omega

/-- The rectified affine image of point `t`'s block at row `q` is the layer's value at row `5000 t + q` of the node array. -/
theorem relu_blocks (c : Dev nD) (t : Fin cfg1.N) (q : Fin 5000) (j : Fin 128) (h : 5000 * t.val + q.val < 100000) :
    Cert.PlainDot.affineRelu (M := 5000) (K := 128) (N := 128) (iblk1 V c 0 t) (iblk1 V c 1 t) (iblk1 V c 2 t) (ix2 q j)
      = Cert.Spec.layer (V c main_v21) (V c main_arg5) (V c main_v22) (ix2 (⟨5000 * t.val + q.val, h⟩ : Fin 100000) j) := by
  unfold Cert.Spec.layer Cert.PlainDot.affineRelu Cert.PlainDot.affine
  refine congrArg (max · _) ?_
  exact congrArg₂ (· + ·) (Finset.sum_congr rfl fun k _ => congrArg₂ (· * ·) (blkX V c t q k h) (blkW V c t k j)) (blkB V c t j)

/-- The running total before point `n`, at column `j`: the sum, over the points before `n`, of the column's sum over the
    point's block of rows of the layer's values. -/
theorem acc_range (c : Dev nD) (j : Fin 128) (n : ℕ) :
    acc1 (F := Ideal) V c n (ix2 (0 : Fin 1) j)
      = ∑ t ∈ Finset.range n, (if h : t < 20 then
          ∑ q : Fin 5000, Cert.Spec.layer (V c main_v21) (V c main_arg5) (V c main_v22)
            (ix2 (⟨5000 * t + q.val, by have := q.isLt; omega⟩ : Fin 100000) j)
        else 0) := by
  have hN : cfg1.N = 20 := N_1
  refine Cert.Spec.running_total _ (fun n => acc1 (F := Ideal) V c n (ix2 (0 : Fin 1) j)) ?_ (fun n => ?_) n
  · show acc1 (F := Ideal) V c 0 (ix2 (0 : Fin 1) j) = 0
    rw [acc1_zero]
    exact accZero_apply _
  · show acc1 (F := Ideal) V c (n + 1) (ix2 (0 : Fin 1) j) = acc1 (F := Ideal) V c n (ix2 (0 : Fin 1) j) + _
    by_cases h : n < 20
    · have h' : n < cfg1.N := by rw [hN]; exact h
      have e : acc1 (F := Ideal) V c (n + 1)
          = accStep (iblk1 V c 0 ⟨n, h'⟩) (iblk1 V c 1 ⟨n, h'⟩) (iblk1 V c 2 ⟨n, h'⟩) (acc1 V c n) :=
        acc1_succ V c ⟨n, h'⟩
      rw [e, dif_pos h]
      refine (accStep_apply _ _ _ _ j).trans ?_
      refine congrArg (acc1 (F := Ideal) V c n (ix2 (0 : Fin 1) j) + ·) ?_
      exact Finset.sum_congr rfl fun q _ => relu_blocks V c ⟨n, h'⟩ q j _
    · have h' : ¬n < cfg1.N := by rw [hN]; exact h
      have e : acc1 (F := Ideal) V c (n + 1) = acc1 (F := Ideal) V c n := by rw [acc1, dif_neg h']
      rw [e, dif_neg h, add_zero]

/-- After the 20 points the scratch row holds, per column, the sum over all 100000 rows of the layer's values. -/
theorem acc_total (c : Dev nD) :
    acc1 (F := Ideal) V c 20 = Cert.Spec.colSum (Cert.Spec.layer (V c main_v21) (V c main_arg5) (V c main_v22)) := by
  funext i
  obtain ⟨u, j, rfl⟩ : ∃ (u : Fin 1) (j : Fin 128), i = ix2 u j := ⟨i 0, i 1, eq_ix2 i⟩
  obtain rfl : u = 0 := Subsingleton.elim _ _
  rw [acc_range V c j 20, Finset.sum_range]
  show _ = ∑ r : Fin 100000, Cert.Spec.layer (V c main_v21) (V c main_arg5) (V c main_v22) (ix2 r j)
  rw [sum_blocks fun r => Cert.Spec.layer (V c main_v21) (V c main_arg5) (V c main_v22) (ix2 r j)]
  exact Finset.sum_congr rfl fun t _ => dif_pos t.isLt

end Cert.KernelIdeal.PoolSum

end
-- ==== Proof.KI.PoolValue.lean ====
/-
  What the result array holds after the fused second-layer, sum-over-nodes and last-layer region.
  The body keeps a running total in a scratch row; only at the last of the twenty grid points does it store, into the
  one-row result block, the rectified affine image (last weight, last bias row) of the total after that point, and only
  that point writes the block back to the result array, whose one block is the whole array. So after the region the
  result array holds the last layer's image of the total after all twenty points. At the extended reals the narrowing
  format changes are identities and the product into a zero accumulator is the plain sum of products, so that image is
  the specification's last layer applied to the total; with the total equal to the column sums of the second layer
  (a hypothesis here), the result array is the specification's last layer of those column sums.
-/
import proofs.«102334_j81604378624770_1_alg».proof.Proof.KI.Pool
import proofs.«102334_j81604378624770_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.PoolValue

open Cert.KernelIdeal Cert.KernelIdeal.Gen Cert.KernelIdeal.Pool
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

/-- The last layer's contraction record is the plain rows-by-columns one. -/
theorem dot_head_eq : dot_S1x128_S128x256_S1x256_1_0_0_1_n_n = DotDims.plain 1 128 256 := rfl

/-- At the extended reals the body's last-layer arithmetic on a total row, a weight and a bias row is the
    specification's last layer: the narrowing format changes are identities, the product into the zero accumulator is
    the sum of products, the bias row (already of the result's shape) is added entry by entry, and the rectifier is the
    maximum with the value of the zero word. The result has one row, so its row coordinate is 0. -/
theorem headOf_eq (s : Vec Ideal S1x128 .f32) (x3 : Vec Ideal S128x256 .f32) (x4 : Vec Ideal S1x256 .f32) :
    headOf (F := Ideal) s x3 x4 = Cert.Spec.head s x3 x4 := by
  funext j
  obtain ⟨p, q, rfl⟩ : ∃ (p : Fin 1) (q : Fin 256), j = ix2 p q := ⟨j 0, j 1, eq_ix2 j⟩
  obtain rfl : p = 0 := Subsingleton.elim _ _
  show k1_pay3 (F := Ideal) s x3 x4 (ix2 0 q) = _
  unfold k1_pay3
  rw [shapeCast_self, dot_head_eq, maximumf_apply, addf_apply]
  have hm := Cert.PlainDot.matmul_zero_apply (M := 1) (K := 128) (N := 256) (φ₁ := .f32) (φ₂ := .f32) none s x3 (ix2 0 q)
  refine (congrArg (fun z : EReal => max (z + x4 (ix2 0 q)) (Ideal.ofBits .f32 0x00000000#32)) hm).trans ?_
  rfl

section Blocks

variable {F : FTy → Type} [FloatOps F]

/-- A whole buffer read through the rectangle of its own sizes placed at offsets that all vanish is the buffer's
    contents. -/
theorem read_at_origin (b : Ref sig .tc) (off : Fin b.ty.shape.rank → Nat) (hoff : ∀ a, off a = 0)
    (inb : ∀ a, off a + b.ty.shape.size a ≤ b.ty.shape.size a) (f : b.ty.Contents (Elt F)) :
    ((Memref.whole b).access (Rect.unit off b.ty.shape.size inb) : View sig .tc _ _ _).read (Elt F) f = f :=
  Memref.read_access_unit_zero (Elt F) b (funext hoff) inb f

/-- The last weight's, the last bias row's and the result's windows sit at block (0, 0) at every point. -/
theorem origin3 (t : Fin cfg1.N) (a : Fin 2) : win1_3.index t a * S128x256.size a = 0 := by
  have h : win1_3.index t a = 0 := by
    match a with
    | ⟨0, _⟩ => rfl
    | ⟨1, _⟩ => rfl
  rw [h, Nat.zero_mul]
theorem origin4 (t : Fin cfg1.N) (a : Fin 2) : win1_4.index t a * S1x256.size a = 0 := by
  have h : win1_4.index t a = 0 := by
    match a with
    | ⟨0, _⟩ => rfl
    | ⟨1, _⟩ => rfl
  rw [h, Nat.zero_mul]
theorem origin5 (t : Fin cfg1.N) (a : Fin 2) : win1_5.index t a * S1x256.size a = 0 := by
  have h : win1_5.index t a = 0 := by
    match a with
    | ⟨0, _⟩ => rfl
    | ⟨1, _⟩ => rfl
  rw [h, Nat.zero_mul]

variable (V : (c : Dev nD) → (b : Ref sig .tc) → Buf (Elt F) ((c : Thread nD τ).loc b))

/-- So the block of the last weight the body sees at any point is the whole weight, -/
theorem weight_block (c : Dev nD) (t : Fin cfg1.N) : (iblk1 V c 3 t : Vec F S128x256 .f32) = V c main_arg7 := by
  unfold iblk1
  exact read_at_origin main_arg7 _ (origin3 t) _ (V c main_arg7)

/-- and the block of the last bias row is the whole row. -/
theorem bias_block (c : Dev nD) (t : Fin cfg1.N) : (iblk1 V c 4 t : Vec F S1x256 .f32) = V c main_v23 := by
  unfold iblk1
  exact read_at_origin main_v23 _ (origin4 t) _ (V c main_v23)

/-- What the result array holds after the region: the last layer's image of the total after all twenty points. -/
def poolOut (c : Dev nD) : Buf (Elt F) ((c : Thread nD τ).loc main_v24) :=
  headOf (acc1 V c 20) (V c main_arg7) (V c main_v23)

/-- The only point that writes the result back is the last, and what it writes is `poolOut` read through the
    result's one block. -/
theorem writeback_eq (c : Dev nD) (t : Fin cfg1.N) (hf : (cfg1.win 5).flush t = true) :
    (dat1 V c).flushed 5 t = ((cfg1.win 5).blk t).view.read (Elt F) (poolOut V c) := by
  have hlast : t.val + 1 = 20 := by
    have h1 := (flush1_5 t).mp hf
    have h2 : t.val < 20 := lt_of_lt_of_eq t.isLt (show cfg1.N = 20 from N_1)
    omega
  show (cfg1.win 5).cut (grid1.coords t) ((dat1 V c).after 5 t) = _
  rw [after1_5, weight_block, bias_block, hlast]
  exact (read_at_origin main_v24 _ (origin5 t) _ (poolOut V c)).symm

/-- The last point. -/
def lastPt : Fin cfg1.N := ⟨19, by rw [show cfg1.N = 20 from N_1]; decide⟩

/-- Every entry of the result array lies in the last point's block. -/
theorem covered (i : S1x256.Idx) : i ∈ ((cfg1.win 5).blk lastPt).view.set := by
  show i ∈ ((View.whole main_v24).slice (win1_5.rect lastPt)).set
  rw [View.set_slice_whole, Rect.mem_set_unit]
  intro a
  rw [origin5 lastPt a]
  exact ⟨Nat.zero_le _, by rw [Nat.zero_add]; exact (i a).isLt⟩

/-- So after the region the result array holds `poolOut`. -/
theorem arr_final (c : Dev nD) : (dat1 V c).arrAt 5 cfg1.N = poolOut V c :=
  (dat1 V c).arrAt_eq_of_cover 5 (poolOut V c) (writeback_eq V c) fun i =>
    ⟨lastPt, (flush1_5 lastPt).mpr rfl, covered i⟩

end Blocks

/-- At the extended reals: given that the total after the twenty points is the column sums of the second layer, the
    result array ends holding the last layer of those column sums. -/
theorem pool_final (V : (c : Dev nD) → (b : Ref sig .tc) → Buf (Elt Ideal) ((c : Thread nD τ).loc b)) (c : Dev nD)
    (htot : acc1 (F := Ideal) V c 20 = Cert.Spec.colSum (Cert.Spec.layer (V c main_v21) (V c main_arg5) (V c main_v22))) :
    (dat1 (F := Ideal) V c).arrAt 5 cfg1.N
      = Cert.Spec.head (Cert.Spec.colSum (Cert.Spec.layer (V c main_v21) (V c main_arg5) (V c main_v22))) (V c main_arg7) (V c main_v23) := by
  rw [arr_final V c]
  unfold poolOut
  rw [headOf_eq, htot]

end Cert.KernelIdeal.PoolValue

end
-- ==== Proof.KI.Bridge.lean ====
/-
  The idealized kernel's result is the specified function of the argument arrays.
  The second region leaves the last layer's image of the sum over all nodes of the second dense layer of its input
  array; that input array is the aggregation of what the first region leaves, the first dense layer of ITS input array,
  the aggregation of the features; the biases enter as one-row arrays.
-/
import proofs.«102334_j81604378624770_1_alg».proof.Proof.KI.HostSide
import proofs.«102334_j81604378624770_1_alg».proof.Proof.KI.LinValue
import proofs.«102334_j81604378624770_1_alg».proof.Proof.KI.PoolSum
import proofs.«102334_j81604378624770_1_alg».proof.Proof.KI.PoolValue
import proofs.«102334_j81604378624770_1_alg».proof.Proof.Spec
import Idealize.ShloMosaic.Lib.Pipeline.Value

set_option maxRecDepth 16384

noncomputable section

namespace Cert.KernelIdeal.Bridge

open Cert.KernelIdeal Cert.KernelIdeal.Gen
open Idealize.ShloMosaic Idealize.ShloMosaic.TcCoe Idealize.SL.Sem Idealize.ShloMosaic.ValueIdx

/-- A vector of 128 cast to one row of 128 reads, at (0, j), the vector at j; the same for 256. -/
theorem row128_eq (b : (⟨S128, .f32⟩ : BufTy).Contents (Elt Ideal)) :
    shapeCast S1x128 b shapeCasts_S128_S1x128 = Cert.Spec.row128 b := by
  funext j
  exact (shapeCast_addUnit_apply ![128] b shapeCasts_S128_S1x128 j).trans
    (congrArg b (funext fun a => by fin_cases a; rfl))

theorem row256_eq (b : (⟨S256, .f32⟩ : BufTy).Contents (Elt Ideal)) :
    shapeCast S1x256 b shapeCasts_S256_S1x256 = Cert.Spec.row256 b := by
  funext j
  exact (shapeCast_addUnit_apply ![256] b shapeCasts_S256_S1x256 j).trans
    (congrArg b (funext fun a => by fin_cases a; rfl))

variable (m : (ℓ : Loc nD τ sig) → Buf (Elt Ideal) ℓ)

/-- What the second region's write-back leaves in the result array, as the specified function of the launch memory. -/
theorem kernel_result (c : Dev nD) :
    (Pool.dat1 (F := Ideal) (Frame.E3 m) c).arrAt 5 cfg1.N
      = Cert.Spec.result (HostSide.aggK (m ((c.tc : Thread nD τ).loc main_arg1)) (m ((c.tc : Thread nD τ).loc main_arg2)))
          (m ((c.tc : Thread nD τ).loc main_arg0))
          (m ((c.tc : Thread nD τ).loc main_arg3)) (Cert.Spec.row128 (m ((c.tc : Thread nD τ).loc main_arg4)))
          (m ((c.tc : Thread nD τ).loc main_arg5)) (Cert.Spec.row128 (m ((c.tc : Thread nD τ).loc main_arg6)))
          (m ((c.tc : Thread nD τ).loc main_arg7)) (Cert.Spec.row256 (m ((c.tc : Thread nD τ).loc main_arg8))) := by
  rw [PoolValue.pool_final (Frame.E3 m) c (PoolSum.acc_total (Frame.E3 m) c)]
  rw [HostSide.E3_v21, HostSide.E3_arg5, HostSide.E3_v22, HostSide.E3_arg7, HostSide.E3_v23,
    LinValue.lin_final (Frame.E1 m) c, HostSide.E1_v9, HostSide.E1_arg3, HostSide.E1_v10,
    row128_eq, row128_eq, row256_eq]
  rfl

end Cert.KernelIdeal.Bridge

end
-- ==== Proof.RefValue.lean ====
/-
  The reference's result as one function of the argument arrays, read off its run index by index.
-/
import proofs.«102334_j81604378624770_1_alg».proof.Proof.Gen.ReferenceIdeal.Run
import proofs.«102334_j81604378624770_1_alg».proof.Proof.Gen.ReferenceIdeal.Read
import proofs.«102334_j81604378624770_1_alg».proof.Proof.Spec

noncomputable section

namespace Cert.ReferenceIdeal.RefValue

open Cert.ReferenceIdeal Cert.ReferenceIdeal.Gen Cert.ReferenceIdeal.Read
open Idealize.ShloMosaic Idealize.ShloMosaic.TcCoe Idealize.SL.Sem Idealize.ShloMosaic.StableHlo Idealize.ShloMosaic.ValueIdx

/-- The aggregation: rows gathered along the (wrapped) source indices, then summed into the destination rows from zero. -/
def aggR (src dst : (⟨S1600000, .i32⟩ : BufTy).Contents (Elt Ideal)) (X : (⟨S100000x128, .f32⟩ : BufTy).Contents (Elt Ideal)) :
    (⟨S100000x128, .f32⟩ : BufTy).Contents (Elt Ideal) :=
  Host.scatterAdd (F := Ideal) scatter_S100000x128_S1600000x1_S1600000x128_1_0_0_1
    (broadcastInDim S100000x128 ![] bcast_S_S100000x128 (constant (F := Ideal) S_ .f32 0x00000000#32))
    (broadcastInDim S1600000x1 ![0] bcast_S1600000_S1600000x1_0 dst)
    (Host.gather gather_S100000x128_S1600000x1_S1600000x128_1_0_n_n_0_1_1128 X
      (broadcastInDim S1600000x1 ![0] bcast_S1600000_S1600000x1_0
        (select (cmpi .slt src (broadcastInDim S1600000 ![] bcast_S_S1600000 (constantI S_ 32 0#32)))
          (addi src (broadcastInDim S1600000 ![] bcast_S_S1600000 (constantI S_ 32 100000#32))) src)))

/-- The first aggregation of the run is the aggregation of the node features. -/
theorem agg1_eq (x0 : (⟨S100000x128, .f32⟩ : BufTy).Contents (Elt Ideal)) (x1 x2 : (⟨S1600000, .i32⟩ : BufTy).Contents (Elt Ideal)) :
    val_main_v9 (F := Ideal) x0 x1 x2 = aggR x1 x2 x0 := rfl

/-- The second aggregation of the run is the same aggregation of the first layer's output. -/
theorem agg2_eq (x0 : (⟨S100000x128, .f32⟩ : BufTy).Contents (Elt Ideal)) (x1 x2 : (⟨S1600000, .i32⟩ : BufTy).Contents (Elt Ideal))
    (x3 : (⟨S128x128, .f32⟩ : BufTy).Contents (Elt Ideal)) (x4 : (⟨S128, .f32⟩ : BufTy).Contents (Elt Ideal)) :
    val_main_v24 (F := Ideal) x0 x1 x2 x3 x4 = aggR x1 x2 (val_main_v14 (F := Ideal) x0 x1 x2 x3 x4) := rfl

/-- The first dense layer: the contraction with the weight, the bias row added to every row, the rectifier. -/
theorem layer1_eq (x0 : (⟨S100000x128, .f32⟩ : BufTy).Contents (Elt Ideal)) (x1 x2 : (⟨S1600000, .i32⟩ : BufTy).Contents (Elt Ideal))
    (x3 : (⟨S128x128, .f32⟩ : BufTy).Contents (Elt Ideal)) (x4 : (⟨S128, .f32⟩ : BufTy).Contents (Elt Ideal)) :
    val_main_v14 (F := Ideal) x0 x1 x2 x3 x4
      = Cert.Spec.layer (val_main_v9 (F := Ideal) x0 x1 x2) x3 (Cert.Spec.row128 x4) := by
  funext i
  obtain ⟨p, q, rfl⟩ : ∃ (p : Fin 100000) (q : Fin 128), i = ix2 p q := ⟨i 0, i 1, eq_ix2 i⟩
  rw [val_main_v14_apply, val_main_v13_apply, val_main_v10_apply, val_main_v12_apply, val_main_v11_apply,
    val_main_call0_v0_apply, val_main_call0_cst_apply]
  have hl : ∀ k : Fin 128, lidx_main_v10 (ix2 p q) k = ix2 p k := fun k =>
    funext fun a => Fin.ext (by match a with | ⟨0, _⟩ => rfl | ⟨1, _⟩ => rfl)
  have hr : ∀ k : Fin 128, ridx_main_v10 (ix2 p q) k = ix2 k q := fun k =>
    funext fun a => Fin.ext (by match a with | ⟨0, _⟩ => rfl | ⟨1, _⟩ => rfl)
  have hb : idx_main_v11 (idx_main_v12 (ix2 p q)) = ix1 q :=
    funext fun a => Fin.ext (by match a with | ⟨0, _⟩ => rfl)
  simp only [hl, hr, hb, Ideal.maximumf_def, Ideal.addf_def, Ideal.ofBits_def]
  rfl

/-- The second dense layer, on the second aggregation. -/
theorem layer2_eq (x0 : (⟨S100000x128, .f32⟩ : BufTy).Contents (Elt Ideal)) (x1 x2 : (⟨S1600000, .i32⟩ : BufTy).Contents (Elt Ideal))
    (x3 : (⟨S128x128, .f32⟩ : BufTy).Contents (Elt Ideal)) (x4 : (⟨S128, .f32⟩ : BufTy).Contents (Elt Ideal))
    (x5 : (⟨S128x128, .f32⟩ : BufTy).Contents (Elt Ideal)) (x6 : (⟨S128, .f32⟩ : BufTy).Contents (Elt Ideal)) :
    val_main_v29 (F := Ideal) x0 x1 x2 x3 x4 x5 x6
      = Cert.Spec.layer (val_main_v24 (F := Ideal) x0 x1 x2 x3 x4) x5 (Cert.Spec.row128 x6) := by
  funext i
  obtain ⟨p, q, rfl⟩ : ∃ (p : Fin 100000) (q : Fin 128), i = ix2 p q := ⟨i 0, i 1, eq_ix2 i⟩
  rw [val_main_v29_apply, val_main_v28_apply, val_main_v25_apply, val_main_v27_apply, val_main_v26_apply,
    val_main_call1_v0_apply, val_main_call1_cst_apply]
  have hl : ∀ k : Fin 128, lidx_main_v25 (ix2 p q) k = ix2 p k := fun k =>
    funext fun a => Fin.ext (by match a with | ⟨0, _⟩ => rfl | ⟨1, _⟩ => rfl)
  have hr : ∀ k : Fin 128, ridx_main_v25 (ix2 p q) k = ix2 k q := fun k =>
    funext fun a => Fin.ext (by match a with | ⟨0, _⟩ => rfl | ⟨1, _⟩ => rfl)
  have hb : idx_main_v26 (idx_main_v27 (ix2 p q)) = ix1 q :=
    funext fun a => Fin.ext (by match a with | ⟨0, _⟩ => rfl)
  simp only [hl, hr, hb, Ideal.maximumf_def, Ideal.addf_def, Ideal.ofBits_def]
  rfl

/-- The pooled row: each column of the second layer's output summed over all nodes, from zero. -/
theorem pooled_eq (x0 : (⟨S100000x128, .f32⟩ : BufTy).Contents (Elt Ideal)) (x1 x2 : (⟨S1600000, .i32⟩ : BufTy).Contents (Elt Ideal))
    (x3 : (⟨S128x128, .f32⟩ : BufTy).Contents (Elt Ideal)) (x4 : (⟨S128, .f32⟩ : BufTy).Contents (Elt Ideal))
    (x5 : (⟨S128x128, .f32⟩ : BufTy).Contents (Elt Ideal)) (x6 : (⟨S128, .f32⟩ : BufTy).Contents (Elt Ideal)) :
    val_main_v31 (F := Ideal) x0 x1 x2 x3 x4 x5 x6
      = Cert.Spec.colSum (val_main_v29 (F := Ideal) x0 x1 x2 x3 x4 x5 x6) := by
  funext i
  obtain ⟨p, q, rfl⟩ : ∃ (p : Fin 1) (q : Fin 128), i = ix2 p q := ⟨i 0, i 1, eq_ix2 i⟩
  rw [val_main_v31_apply, val_main_v30_apply, val_main_cst_4_apply]
  have hi : ∀ k : Fin 100000, idx_main_v30 (idx_main_v31 (ix2 p q)) k = ix2 k q := fun k =>
    funext fun a => Fin.ext (by match a with | ⟨0, _⟩ => rfl | ⟨1, _⟩ => rfl)
  simp only [hi, Ideal.ofBits_def, Ideal.ofBits_zero_f32, zero_add]
  rfl

/-- The last layer on the pooled row. -/
theorem head_eq (x0 : (⟨S100000x128, .f32⟩ : BufTy).Contents (Elt Ideal)) (x1 x2 : (⟨S1600000, .i32⟩ : BufTy).Contents (Elt Ideal))
    (x3 : (⟨S128x128, .f32⟩ : BufTy).Contents (Elt Ideal)) (x4 : (⟨S128, .f32⟩ : BufTy).Contents (Elt Ideal))
    (x5 : (⟨S128x128, .f32⟩ : BufTy).Contents (Elt Ideal)) (x6 : (⟨S128, .f32⟩ : BufTy).Contents (Elt Ideal))
    (x7 : (⟨S128x256, .f32⟩ : BufTy).Contents (Elt Ideal)) (x8 : (⟨S256, .f32⟩ : BufTy).Contents (Elt Ideal)) :
    val_main_v35 (F := Ideal) x0 x1 x2 x3 x4 x5 x6 x7 x8
      = Cert.Spec.head (val_main_v31 (F := Ideal) x0 x1 x2 x3 x4 x5 x6) x7 (Cert.Spec.row256 x8) := by
  funext i
  obtain ⟨p, q, rfl⟩ : ∃ (p : Fin 1) (q : Fin 256), i = ix2 p q := ⟨i 0, i 1, eq_ix2 i⟩
  rw [val_main_v35_apply, val_main_v34_apply, val_main_v32_apply, val_main_v33_apply,
    val_main_call2_v0_apply, val_main_call2_cst_apply]
  have hl : ∀ k : Fin 128, lidx_main_v32 (ix2 p q) k = ix2 p k := fun k =>
    funext fun a => Fin.ext (by match a with | ⟨0, _⟩ => rfl | ⟨1, _⟩ => rfl)
  have hr : ∀ k : Fin 128, ridx_main_v32 (ix2 p q) k = ix2 k q := fun k =>
    funext fun a => Fin.ext (by match a with | ⟨0, _⟩ => rfl | ⟨1, _⟩ => rfl)
  have hb : idx_main_v33 (ix2 p q) = ix1 q :=
    funext fun a => Fin.ext (by match a with | ⟨0, _⟩ => rfl)
  simp only [hl, hr, hb, Ideal.maximumf_def, Ideal.addf_def, Ideal.ofBits_def]
  rfl

/-- The reference's result is the two-layer network with the aggregation as one function: aggregate, dense layer,
    aggregate, dense layer, sum over the nodes, last layer. -/
theorem ref_result (x0 : (⟨S100000x128, .f32⟩ : BufTy).Contents (Elt Ideal)) (x1 x2 : (⟨S1600000, .i32⟩ : BufTy).Contents (Elt Ideal))
    (x3 : (⟨S128x128, .f32⟩ : BufTy).Contents (Elt Ideal)) (x4 : (⟨S128, .f32⟩ : BufTy).Contents (Elt Ideal))
    (x5 : (⟨S128x128, .f32⟩ : BufTy).Contents (Elt Ideal)) (x6 : (⟨S128, .f32⟩ : BufTy).Contents (Elt Ideal))
    (x7 : (⟨S128x256, .f32⟩ : BufTy).Contents (Elt Ideal)) (x8 : (⟨S256, .f32⟩ : BufTy).Contents (Elt Ideal)) :
    val_main_v35 (F := Ideal) x0 x1 x2 x3 x4 x5 x6 x7 x8
      = Cert.Spec.result (aggR x1 x2) x0 x3 (Cert.Spec.row128 x4) x5 (Cert.Spec.row128 x6) x7 (Cert.Spec.row256 x8) := by
  rw [head_eq, pooled_eq, layer2_eq, agg2_eq, layer1_eq, agg1_eq]
  rfl

end Cert.ReferenceIdeal.RefValue

end
-- ==== Proof.lean ====
/-
  The certificate: a two-layer graph network on 100000 nodes and 1600000 edges, its two dense stages computed by kernel
  regions tiled over blocks of 5000 nodes, against the plain reference.

  Both programs aggregate node rows along the edges with the same host operations (a gather of rows at the wrapped source
  indices, then a sum into the destination rows), kept here as one opaque function of the node array. Over the extended
  reals the first region is the rectified affine map of each block of rows, which is the reference's matrix product, bias
  and rectifier row by row; the second region adds, block after block and from zero, the column sums of the second rectified
  affine map to a running total, which is the reference's one sum over all nodes because addition of extended reals is
  commutative and associative; and at its last point it applies the last rectified affine map to the total, as the
  reference does to its sum. No finiteness of the inputs is used. Changes of float format are the identity at the ideal
  instance, so the idealization rewrote nothing and the preservation claim is trivial.

  The frames: each kernel program runs as host operations, region, host operations, region; each region's record is proved
  from its body's run at every grid point (the second keeps its running total in the region's invariant), and the run ends
  with every argument array as launched. The reference's frame is its generated run.
-/
import proofs.«102334_j81604378624770_1_alg».proof.Defs
import proofs.«102334_j81604378624770_1_alg».proof.Proof.Gen.Kernel
import proofs.«102334_j81604378624770_1_alg».proof.Proof.Gen.KernelIdeal
import proofs.«102334_j81604378624770_1_alg».proof.Proof.Gen.ReferenceIdeal
import proofs.«102334_j81604378624770_1_alg».proof.Proof.Gen.Pre_finite_inputs
import proofs.«102334_j81604378624770_1_alg».proof.Proof.Gen.ReferenceIdeal.Run
import proofs.«102334_j81604378624770_1_alg».proof.Proof.Gen.ReferenceIdeal.Read
import proofs.«102334_j81604378624770_1_alg».proof.Proof.K.Frame
import proofs.«102334_j81604378624770_1_alg».proof.Proof.KI.Frame
import proofs.«102334_j81604378624770_1_alg».proof.Proof.KI.Bridge
import proofs.«102334_j81604378624770_1_alg».proof.Proof.RefValue
import Idealize.ShloMosaic.Adequacy
import Idealize.ShloMosaic.Init

noncomputable section

namespace Cert.Proof

open Idealize.ShloMosaic Idealize.ShloMosaic.TcCoe Idealize.SL.Sem

/-- The two programs' aggregation is one function: the same operations over the same index arrays. -/
theorem agg_eq (src dst : (⟨Cert.KernelIdeal.S1600000, .i32⟩ : BufTy).Contents (Elt Ideal))
    (X : (⟨Cert.KernelIdeal.S100000x128, .f32⟩ : BufTy).Contents (Elt Ideal)) :
    Cert.ReferenceIdeal.RefValue.aggR src dst X = Cert.KernelIdeal.HostSide.aggK (F := Ideal) src dst X := rfl

theorem frame_k : Cert.frame_Kernel := fun m ρ _ =>
  (θ_run Cert.Kernel.defs _ _).mono (fun _ h c => (h c).2) (Cert.Kernel.Frame.run (F := Bits) m ρ)

theorem frame_ki : Cert.frame_KernelIdeal := fun m ρ _ =>
  (θ_run Cert.KernelIdeal.defs _ _).mono (fun _ h c => (h c).2) (Cert.KernelIdeal.Frame.run (F := Ideal) m ρ)

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories agreeing on the arguments both idealized programs end with the specified function of the arguments in
    their result arrays: the kernel's by its run and the bridge, the reference's by its generated run read stage by stage. -/
theorem algebraic : Cert.algebraic_KernelIdeal_ReferenceIdeal := by
  intro m ρ m' ρ' _ hagree
  refine ⟨fun c => Cert.Spec.result
      (Cert.KernelIdeal.HostSide.aggK (F := Ideal) (m ((c.tc : Thread Cert.KernelIdeal.nD Cert.KernelIdeal.τ).loc Cert.KernelIdeal.main_arg1)) (m ((c.tc : Thread Cert.KernelIdeal.nD Cert.KernelIdeal.τ).loc Cert.KernelIdeal.main_arg2)))
      (m ((c.tc : Thread Cert.KernelIdeal.nD Cert.KernelIdeal.τ).loc Cert.KernelIdeal.main_arg0)) (m ((c.tc : Thread Cert.KernelIdeal.nD Cert.KernelIdeal.τ).loc Cert.KernelIdeal.main_arg3)) (Cert.Spec.row128 (m ((c.tc : Thread Cert.KernelIdeal.nD Cert.KernelIdeal.τ).loc Cert.KernelIdeal.main_arg4))) (m ((c.tc : Thread Cert.KernelIdeal.nD Cert.KernelIdeal.τ).loc Cert.KernelIdeal.main_arg5)) (Cert.Spec.row128 (m ((c.tc : Thread Cert.KernelIdeal.nD Cert.KernelIdeal.τ).loc Cert.KernelIdeal.main_arg6)))
      (m ((c.tc : Thread Cert.KernelIdeal.nD Cert.KernelIdeal.τ).loc Cert.KernelIdeal.main_arg7)) (Cert.Spec.row256 (m ((c.tc : Thread Cert.KernelIdeal.nD Cert.KernelIdeal.τ).loc Cert.KernelIdeal.main_arg8))), ?_, ?_⟩
  · exact (θ_run Cert.KernelIdeal.defs _ _).mono
      (fun _ h c => ⟨(h c).1.trans (Cert.KernelIdeal.Bridge.kernel_result m c), (h c).2⟩)
      (Cert.KernelIdeal.Frame.run (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v35_eq, Cert.ReferenceIdeal.RefValue.ref_result]
    obtain ⟨h0, h1, h2, h3, h4, h5, h6, h7, h8⟩ := hagree c
    rw [h0, h1, h2, h3, h4, h5, h6, h7, h8]
    rfl

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
